-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S524288 : Shape := ⟨1, ![524288]⟩
abbrev S1024x512 : Shape := ⟨2, ![1024, 512]⟩
abbrev S512x128 : Shape := ⟨2, ![512, 128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S16384x1024 .f32) (main_arg1 : IVec S524288 32) (main_arg2 : IVec S524288 32) (main_arg3 : FVec F S1024x512 .f32) (main_arg4 : FVec F S512x128 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S16384x1024 : Shape := ⟨2, ![16384, 1024]⟩
abbrev S524288 : Shape := ⟨1, ![524288]⟩
abbrev S1024x512 : Shape := ⟨2, ![1024, 512]⟩
abbrev S512x128 : Shape := ⟨2, ![512, 128]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x512 : Shape := ⟨2, ![16384, 512]⟩
abbrev S1024x1024 : Shape := ⟨2, ![1024, 1024]⟩
abbrev S524288x512 : Shape := ⟨2, ![524288, 512]⟩
abbrev S16384x128 : Shape := ⟨2, ![16384, 128]⟩
abbrev S2048x512 : Shape := ⟨2, ![2048, 512]⟩
abbrev S2048x128 : Shape := ⟨2, ![2048, 128]⟩
abbrev S524288x128 : Shape := ⟨2, ![524288, 128]⟩
abbrev S16384x16384 : Shape := ⟨2, ![16384, 16384]⟩
abbrev S2048x2048 : Shape := ⟨2, ![2048, 2048]⟩

abbrev nBuf : Space → Nat
  | .hbm => 62
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S524288, .i32⟩
  | .hbm, ⟨2, _⟩ => ⟨S524288, .i32⟩
  | .hbm, ⟨3, _⟩ => ⟨S1024x512, .f32⟩
  | .hbm, ⟨4, _⟩ => ⟨S512x128, .f32⟩
  | .hbm, ⟨5, _⟩ => ⟨S_, .f32⟩
  | .hbm, ⟨6, _⟩ => ⟨S524288, .f32⟩
  | .hbm, ⟨7, _⟩ => ⟨S_, .f32⟩
  | .hbm, ⟨8, _⟩ => ⟨S16384, .f32⟩
  | .hbm, ⟨9, _⟩ => ⟨S524288x1, .i32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .i1⟩
  | .hbm, ⟨14, _⟩ => ⟨S_, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x512, .f32⟩
  | .hbm, ⟨25, _⟩ => ⟨S_, .i32⟩
  | .hbm, ⟨26, _⟩ => ⟨S524288, .i32⟩
  | .hbm, ⟨27, _⟩ => ⟨S524288, .i1⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S524288, .i32⟩
  | .hbm, ⟨32, _⟩ => ⟨S524288x1, .i32⟩
  | .hbm, ⟨33, _⟩ => ⟨S524288x512, .f32⟩
  | .hbm, ⟨34, _⟩ => ⟨S_, .f32⟩
  | .hbm, ⟨35, _⟩ => ⟨S16384x512, .f32⟩
  | .hbm, ⟨36, _⟩ => ⟨S524288x1, .i32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x128, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x128, .f32⟩
  | .hbm, ⟨55, _⟩ => ⟨S_, .f32⟩
  | .hbm, ⟨56, _⟩ => ⟨S16384x128, .f32⟩
  | .hbm, ⟨57, _⟩ => ⟨S524288x1, .i32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S16384x16384, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S2048x512, .f32⟩
  | .local _ .vmem, ⟨6, _⟩ => ⟨S2048x512, .f32⟩
  | .local _ .vmem, ⟨7, _⟩ => ⟨S512x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x2048, .f32⟩
  | .local _ .vmem, ⟨15, _⟩ => ⟨S2048x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  scatter_S16384_S524288x1_S524288_n_0_0_1_wf : ScatterDims.WF S16384 S524288x1 S524288 [] [0] [0] 1
  dot_S1024x1024_S1024x512_S1024x512_1_0_0_1_n_n_wf : DotDims.WF S1024x1024 S1024x512 S1024x512 [1] [0] [0] [1] [] []
  gather_S16384x512_S524288x1_S524288x512_1_0_n_n_0_1_1512_wf : GatherDims.WF S16384x512 S524288x1 S524288x512 [1] [0] [] [0] [] 1 ![1, 512]
  scatter_S16384x512_S524288x1_S524288x512_1_0_0_1_wf : ScatterDims.WF S16384x512 S524288x1 S524288x512 [1] [0] [0] 1
  dot_S2048x512_S512x128_S2048x128_1_0_0_1_n_n_wf : DotDims.WF S2048x512 S512x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .f32 = 32 ∨ (Rect.block (s := S16384x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S16384x16384.size a
  hwx2_2 : ∀ i : grid2.Coords, EltTy.bits .f32 = 32 ∨ (Rect.block (s := S16384x16384) S2048x2048.size (cc2_transform_2 i) (hinb2_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def gather_S16384x512_S524288x1_S524288x512_1_0_n_n_0_1_1512 : GatherDims S16384x512 S524288x1 S524288x512 where
  offsetDims := [1]
  collapsedSliceDims := [0]
  operandBatchingDims := []
  startIndicesBatchingDims := []
  startIndexMap := [0]
  indexVectorDim := 1
  sliceSizes := ![1, 512]
  wf := gather_S16384x512_S524288x1_S524288x512_1_0_n_n_0_1_1512_wf
def scatter_S16384x512_S524288x1_S524288x512_1_0_0_1 : ScatterDims S16384x512 S524288x1 S524288x512 where
  updateWindowDims := [1]
  insertedWindowDims := [0]
  scatterDimsToOperandDims := [0]
  indexVectorDim := 1
  wf := scatter_S16384x512_S524288x1_S524288x512_1_0_0_1_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x1024 : Shape := ⟨2, ![16384, 1024]⟩
abbrev S524288 : Shape := ⟨1, ![524288]⟩
abbrev S1024x512 : Shape := ⟨2, ![1024, 512]⟩
abbrev S512x128 : Shape := ⟨2, ![512, 128]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x512 : Shape := ⟨2, ![16384, 512]⟩
abbrev S524288x512 : Shape := ⟨2, ![524288, 512]⟩
abbrev S16384x128 : Shape := ⟨2, ![16384, 128]⟩
abbrev S524288x128 : Shape := ⟨2, ![524288, 128]⟩
abbrev S128x16384 : Shape := ⟨2, ![128, 16384]⟩
abbrev S16384x16384 : Shape := ⟨2, ![16384, 16384]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S524288, .i32⟩
  | .hbm, ⟨2, _⟩ => ⟨S524288, .i32⟩
  | .hbm, ⟨3, _⟩ => ⟨S1024x512, .f32⟩
  | .hbm, ⟨4, _⟩ => ⟨S512x128, .f32⟩
  | .hbm, ⟨5, _⟩ => ⟨S_, .f32⟩
  | .hbm, ⟨6, _⟩ => ⟨S524288, .f32⟩
  | .hbm, ⟨7, _⟩ => ⟨S_, .f32⟩
  | .hbm, ⟨8, _⟩ => ⟨S16384, .f32⟩
  | .hbm, ⟨9, _⟩ => ⟨S524288x1, .i32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .i1⟩
  | .hbm, ⟨14, _⟩ => ⟨S_, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x512, .f32⟩
  | .hbm, ⟨25, _⟩ => ⟨S_, .i32⟩
  | .hbm, ⟨26, _⟩ => ⟨S524288, .i32⟩
  | .hbm, ⟨27, _⟩ => ⟨S524288, .i1⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S524288, .i32⟩
  | .hbm, ⟨32, _⟩ => ⟨S524288x1, .i32⟩
  | .hbm, ⟨33, _⟩ => ⟨S524288x512, .f32⟩
  | .hbm, ⟨34, _⟩ => ⟨S_, .f32⟩
  | .hbm, ⟨35, _⟩ => ⟨S16384x512, .f32⟩
  | .hbm, ⟨36, _⟩ => ⟨S524288x1, .i32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x128, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x128, .f32⟩
  | .hbm, ⟨55, _⟩ => ⟨S_, .f32⟩
  | .hbm, ⟨56, _⟩ => ⟨S16384x128, .f32⟩
  | .hbm, ⟨57, _⟩ => ⟨S524288x1, .i32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S128x16384, .f32⟩
  | .hbm, ⟨62, _⟩ => ⟨S16384x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  transposes_S16384x128_S128x16384_1_0 : S16384x128.Transposes [1, 0] S128x16384
  scatter_S16384_S524288x1_S524288_n_0_0_1_wf : ScatterDims.WF S16384 S524288x1 S524288 [] [0] [0] 1
  dot_S16384x1024_S1024x512_S16384x512_1_0_0_1_n_n_wf : DotDims.WF S16384x1024 S1024x512 S16384x512 [1] [0] [0] [1] [] []
  gather_S16384x512_S524288x1_S524288x512_1_0_n_n_0_1_1512_wf : GatherDims.WF S16384x512 S524288x1 S524288x512 [1] [0] [] [0] [] 1 ![1, 512]
  scatter_S16384x512_S524288x1_S524288x512_1_0_0_1_wf : ScatterDims.WF S16384x512 S524288x1 S524288x512 [1] [0] [0] 1
  dot_S16384x512_S512x128_S16384x128_1_0_0_1_n_n_wf : DotDims.WF S16384x512 S512x128 S16384x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x16384_S16384x16384_1_0_0_1_n_n_wf : DotDims.WF S16384x128 S128x16384 S16384x16384 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def gather_S16384x512_S524288x1_S524288x512_1_0_n_n_0_1_1512 : GatherDims S16384x512 S524288x1 S524288x512 where
  offsetDims := [1]
  collapsedSliceDims := [0]
  operandBatchingDims := []
  startIndicesBatchingDims := []
  startIndexMap := [0]
  indexVectorDim := 1
  sliceSizes := ![1, 512]
  wf := gather_S16384x512_S524288x1_S524288x512_1_0_n_n_0_1_1512_wf
def scatter_S16384x512_S524288x1_S524288x512_1_0_0_1 : ScatterDims S16384x512 S524288x1 S524288x512 where
  updateWindowDims := [1]
  insertedWindowDims := [0]
  scatterDimsToOperandDims := [0]
  indexVectorDim := 1
  wf := scatter_S16384x512_S524288x1_S524288x512_1_0_0_1_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.KbRegion0.lean ====
/-
  One product region of the program (pipeline 0 of the three): at every grid point the kernel's body loads its two operand
  blocks whole, multiplies them into a zero accumulator and stores the product over the whole result block. Here: the body as a
  triple over its three staging buffers, the pipeline's proof data at the contents the region finds (with the share held of
  each operand's array a parameter), and the body obligation at every grid point. Stated for any float family.
-/
import proofs.«177826_j66597762892108_1_alg».proof.Proof.Gen.Kernel.Launch
import proofs.«177826_j66597762892108_1_alg».proof.Proof.Gen.Kernel.Skeleton
import proofs.«177826_j66597762892108_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`: the rows of its array that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds the point's block whenever the body runs, whether the pipeline fetched it
    at this point or kept it from the point before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes: each staging buffer whole -/

abbrev r0_0 : Rect S1024x1024 := Rect.unit (s := S1024x1024) ![0, 0] S1024x1024.size inb_S1024x1024_S1024x1024_0_0
abbrev r0_1 : Rect S1024x512 := Rect.unit (s := S1024x512) ![0, 0] S1024x512.size inb_S1024x512_S1024x512_0_0
abbrev r0_2 : Rect S1024x512 := Rect.unit (s := S1024x512) ![0, 0] S1024x512.size inb_S1024x512_S1024x512_0_0

/-- The result's staging buffer after the body: the one store of the product of the two operand blocks, over the whole buffer. -/
def out0_2 (x0 : Vec F S1024x1024 .f32) (x1 : Vec F S1024x512 .f32) : Vec F S1024x512 .f32 :=
  View.canon [⟨r0_2, k0_pay1 (View.ld x0 r0_0) (View.ld x1 r0_1)⟩]

/-- That store covers the buffer. -/
theorem cover0_2 (p0 : Vec F S1024x512 .f32) (y : S1024x512.Idx) :
    ∃ pc ∈ ([⟨r0_2, p0⟩] : List (View.Piece (Elt F) S1024x512 .f32)), y ∈ pc.1.set :=
  View.cover_of_tiled [⟨r0_2, p0⟩] S1024x512.size (by rfl) y

/-! ## The body's triple -/

set_option maxHeartbeats 1000000 in
/-- The kernel body on whole staging buffers, the operands' at contents `x0`, `x1` and the result's at anything, runs to the
    continuation with the operands as they were and the result's buffer at `out0_2 x0 x1`. -/
theorem sound_kernel0 (c : Dev nD) (E : Set ℕ) (i : grid0.Coords) (a0 : Memref sig .tc .vmem S1024x1024 .f32) (ha0 : a0.IsWhole) (a1 : Memref sig .tc .vmem S1024x512 .f32) (ha1 : a1.IsWhole) (a2 : Memref sig .tc .vmem S1024x512 .f32) (ha2 : a2.IsWhole)
    (x0 : Vec F S1024x1024 .f32) (x1 : Vec F S1024x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__dense_proj_kernel i a0 ha0 a1 ha1 a2 ha2) K := by
  simp only [cc0__dense_proj_kernel_eq_skeleton]; unfold cc0__dense_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t` each operand's
    buffer still at its block and the result's at the product of the two blocks; the invariant carries only what the body does
    not touch; nothing owed; `q` the share held of each operand's array. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = out0_2 (iblk0 V c 0 t) (iblk0 V c 1 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-! ## The body obligation, at a generic point -/

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

/-- The body at any point: the operands' buffers hold their blocks, so the body's triple applies; the invariant and what the
    core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V q c) (defs₀ (F := F)) Variants.none () Set.univ := fun t => by
  rw [bigSep_W0, bigSep_W0]
  exact sound_body0 V q c t

end Cert.Kernel.Fr

end
-- ==== Proof.KbRegion1.lean ====
/-
  One product region of the program (pipeline 1 of the three): at every grid point the kernel's body loads its two operand
  blocks whole, multiplies them into a zero accumulator and stores the product over the whole result block. Here: the body as a
  triple over its three staging buffers, the pipeline's proof data at the contents the region finds (with the share held of
  each operand's array a parameter), and the body obligation at every grid point. Stated for any float family.
-/
import proofs.«177826_j66597762892108_1_alg».proof.Proof.Gen.Kernel.Launch
import proofs.«177826_j66597762892108_1_alg».proof.Proof.Gen.Kernel.Skeleton
import proofs.«177826_j66597762892108_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`: the rows of its array that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds the point's block whenever the body runs, whether the pipeline fetched it
    at this point or kept it from the point before (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: each staging buffer whole -/

abbrev r1_0 : Rect S2048x512 := Rect.unit (s := S2048x512) ![0, 0] S2048x512.size inb_S2048x512_S2048x512_0_0
abbrev r1_1 : Rect S512x128 := Rect.unit (s := S512x128) ![0, 0] S512x128.size inb_S512x128_S512x128_0_0
abbrev r1_2 : Rect S2048x128 := Rect.unit (s := S2048x128) ![0, 0] S2048x128.size inb_S2048x128_S2048x128_0_0

/-- The result's staging buffer after the body: the one store of the product of the two operand blocks, over the whole buffer. -/
def out1_2 (x0 : Vec F S2048x512 .f32) (x1 : Vec F S512x128 .f32) : Vec F S2048x128 .f32 :=
  View.canon [⟨r1_2, k1_pay1 (View.ld x0 r1_0) (View.ld x1 r1_1)⟩]

/-- That store covers the buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

/-! ## The body's triple -/

set_option maxHeartbeats 1000000 in
/-- The kernel body on whole staging buffers, the operands' at contents `x0`, `x1` and the result's at anything, runs to the
    continuation with the operands as they were and the result's buffer at `out1_2 x0 x1`. -/
theorem sound_kernel1 (c : Dev nD) (E : Set ℕ) (i : grid1.Coords) (a0 : Memref sig .tc .vmem S2048x512 .f32) (ha0 : a0.IsWhole) (a1 : Memref sig .tc .vmem S512x128 .f32) (ha1 : a1.IsWhole) (a2 : Memref sig .tc .vmem S2048x128 .f32) (ha2 : a2.IsWhole)
    (x0 : Vec F S2048x512 .f32) (x1 : Vec F S512x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out1_2 x0 x1)) -∗ K ⟨⟩))
      ⊢ wp frame (wpE (defs₀ (F := F)) Variants.none c none) E (cc1__dense_proj_kernel i a0 ha0 a1 ha1 a2 ha2) K := by
  simp only [cc1__dense_proj_kernel_eq_skeleton]; unfold cc1__dense_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each operand's
    buffer still at its block and the result's at the product of the two blocks; the invariant carries only what the body does
    not touch; nothing owed; `q` the share held of each operand's array. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = out1_2 (iblk1 V c 0 t) (iblk1 V c 1 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body obligation, at a generic point -/

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any point: the operands' buffers hold their blocks, so the body's triple applies; the invariant and what the
    core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V q c) (defs₀ (F := F)) Variants.none () Set.univ := fun t => by
  rw [bigSep_W1, bigSep_W1]
  exact sound_body1 V q c t

end Cert.Kernel.Fr

end
-- ==== Proof.KbRegion2.lean ====
/-
  One product region of the program (pipeline 2 of the three): at every grid point the kernel's body loads its two operand
  blocks whole, multiplies them into a zero accumulator and stores the product over the whole result block. Here: the body as a
  triple over its three staging buffers, the pipeline's proof data at the contents the region finds (with the share held of
  each operand's array a parameter), and the body obligation at every grid point. Stated for any float family.
-/
import proofs.«177826_j66597762892108_1_alg».proof.Proof.Gen.Kernel.Launch
import proofs.«177826_j66597762892108_1_alg».proof.Proof.Gen.Kernel.Skeleton
import proofs.«177826_j66597762892108_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`: the rows of its array that the point's index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds the point's block whenever the body runs, whether the pipeline fetched it
    at this point or kept it from the point before (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the second operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes: each staging buffer whole -/

abbrev r2_0 : Rect S2048x128 := Rect.unit (s := S2048x128) ![0, 0] S2048x128.size inb_S2048x128_S2048x128_0_0
abbrev r2_1 : Rect S2048x128 := Rect.unit (s := S2048x128) ![0, 0] S2048x128.size inb_S2048x128_S2048x128_0_0
abbrev r2_2 : Rect S2048x2048 := Rect.unit (s := S2048x2048) ![0, 0] S2048x2048.size inb_S2048x2048_S2048x2048_0_0

/-- The result's staging buffer after the body: the one store of the product of the two operand blocks, over the whole buffer. -/
def out2_2 (x0 : Vec F S2048x128 .f32) (x1 : Vec F S2048x128 .f32) : Vec F S2048x2048 .f32 :=
  View.canon [⟨r2_2, k2_pay1 (View.ld x0 r2_0) (View.ld x1 r2_1)⟩]

/-- That store covers the buffer. -/
theorem cover2_2 (p0 : Vec F S2048x2048 .f32) (y : S2048x2048.Idx) :
    ∃ pc ∈ ([⟨r2_2, p0⟩] : List (View.Piece (Elt F) S2048x2048 .f32)), y ∈ pc.1.set :=
  View.cover_of_tiled [⟨r2_2, p0⟩] S2048x2048.size (by rfl) y

/-! ## The body's triple -/

set_option maxHeartbeats 1000000 in
/-- The kernel body on whole staging buffers, the operands' at contents `x0`, `x1` and the result's at anything, runs to the
    continuation with the operands as they were and the result's buffer at `out2_2 x0 x1`. -/
theorem sound_kernel2 (c : Dev nD) (E : Set ℕ) (i : grid2.Coords) (a0 : Memref sig .tc .vmem S2048x128 .f32) (ha0 : a0.IsWhole) (a1 : Memref sig .tc .vmem S2048x128 .f32) (ha1 : a1.IsWhole) (a2 : Memref sig .tc .vmem S2048x2048 .f32) (ha2 : a2.IsWhole)
    (x0 : Vec F S2048x128 .f32) (x1 : Vec F S2048x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__zzt_kernel i a0 ha0 a1 ha1 a2 ha2) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each operand's
    buffer still at its block and the result's at the product of the two blocks; the invariant carries only what the body does
    not touch; nothing owed; `q` the share held of each operand's array. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = out2_2 (iblk2 V c 0 t) (iblk2 V c 1 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d

/-! ## The body obligation, at a generic point -/

/-- What the body is called with at point `t`, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

/-- The body at any point: the operands' buffers hold their blocks, so the body's triple applies; the invariant and what the
    core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V q c) (defs₀ (F := F)) Variants.none () Set.univ := fun t => by
  rw [bigSep_W2, bigSep_W2]
  exact sound_body2 V q c t

end Cert.Kernel.Fr

end
-- ==== Proof.KbShared2.lean ====
/-
  Region 2 hands ONE array, z, to both of its operand windows. A core holds z whole; the pipeline wants each window's array at
  a share of its own. Here: a core's unscoped buffers at contents V are exactly the pipeline's arrays — z at the left half of the
  full share for the first operand and at the right half for the second, the result's array at the full share — together with
  every other unscoped buffer at V. Read left to right it splits the arrays out at the region's entry, right to left it puts them
  back at its exit.
-/
import proofs.«177826_j66597762892108_1_alg».proof.Proof.Gen.Kernel.Launch
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind region 2's three windows: the shared operand and the result. -/
theorem arrImage2 : (Finset.univ.image (Pipeline.arrRef spec2) : Finset (Ref sig .tc)) = {main_v40, main_v41} := by decide

theorem unscopedBufs_eq_arrays2 (c : Dev nD) (dat : Dat τ (Elt F) Unit ℕ (UR sig nD τ) ℕ cfg2 c)
    (hs0 : dat.share 0 = fullShare.left) (hs1 : dat.share 1 = fullShare.right) (hs2 : dat.share 2 = fullShare)
    (V : (b : Ref sig .tc) → Buf (Elt F) ((c : Thread nD τ).loc b))
    (Fa : (w : Fin cfg2.W) → Buf (Elt F) ((cfg2.win w).arr.view.loc (c.tc : Thread nD τ)))
    (h0 : Fa 0 = V main_v40) (h1 : Fa 1 = V main_v40) (h2 : Fa 2 = V main_v41) :
    (unscopedBufs c V : sProp 𝕄) = iprop(dat.arrays Fa ∗ Pipeline.unscopedRest spec2 c V) := by
  rw [Pipeline.unscopedBufs_split₀ cfgs 2 winFacts₀2.arr_unscoped c V]
  unfold Pipeline.arrBufs Dat.arrays
  rw [show (Finset.univ.image (Pipeline.arrRef (cfgs 2).spec)) = ({main_v40, main_v41} : Finset (Ref sig .tc)) from arrImage2,
    bigSep_insert (by decide), bigSep_singleton, bigSep_W2]
  rw [hs0, hs1, hs2, h0, h1, h2, (arr_whole2 0).set_eq_univ, (arr_whole2 2).set_eq_univ]
  have key : (iprop((((c.tc : Thread nD τ).loc main_v40 ↦{fullShare} V main_v40) ∗ ((c.tc : Thread nD τ).loc main_v41 ↦{fullShare} V main_v41))
          ∗ Pipeline.unscopedRest spec2 c V) : sProp 𝕄)
      = iprop((((c.tc : Thread nD τ).loc main_v40 ↦{fullShare.left} V main_v40) ∗ ((c.tc : Thread nD τ).loc main_v40 ↦{fullShare.right} V main_v40)
          ∗ ((c.tc : Thread nD τ).loc main_v41 ↦{fullShare} V main_v41)) ∗ Pipeline.unscopedRest spec2 c V) := by
    refine equiv_iff.mp ⟨?_, ?_⟩
    · -- z held whole is z at the two halves
      show (_ : sProp 𝕄) ⊢ _
      iintro ⟨⟨Ha, Hc⟩, Hr⟩
      ihave Hs := (pointsTo_share (PosShare.mem_left_op_right fullShare)).1 $$ Ha
      icases Hs with ⟨Hl, Hrt⟩
      isplitr [Hr]
      · isplitl [Hl]; · iexact Hl
        isplitl [Hrt]; · iexact Hrt
        iexact Hc
      · iexact Hr
    · -- and the two halves make z whole again
      show (_ : sProp 𝕄) ⊢ _
      iintro ⟨⟨Hl, Hrt, Hc⟩, Hr⟩
      isplitr [Hr]
      · isplitl [Hl Hrt]
        · iapply (pointsTo_share (PosShare.mem_left_op_right fullShare)).2
          isplitl [Hl]; · iexact Hl
          iexact Hrt
        · iexact Hc
      · iexact Hr
  exact key

/-- The other unscoped buffers do not care which contents the region's arrays are given. -/
theorem unscopedRest2_congr (c : Dev nD) (V V' : (b : Ref sig .tc) → Buf (Elt F) ((c : Thread nD τ).loc b))
    (hrest : ∀ b, b ∉ Finset.univ.image (Pipeline.arrRef spec2) → V' b = V b) :
    (Pipeline.unscopedRest spec2 c V : sProp 𝕄) = Pipeline.unscopedRest spec2 c V' := by
  unfold Pipeline.unscopedRest
  exact bigSep_congr fun b hb => by rw [hrest b (Finset.mem_sdiff.mp hb).2]

end Cert.Kernel.Fr

end
-- ==== Proof.KbRun.lean ====
/-
  The whole run of the program: the contents of a core's buffers at each boundary of @main (three stretches of host operations,
  the first product region, three more stretches, the second region, one stretch, the third region), the proof data of the three
  pipelines each at the contents its region finds, a segment per item, and the launch: every weakly fair execution terminates and
  ends with every unscoped buffer at the last boundary's contents. Both the frame claim (each argument array ends as launched) and
  the value of the result array are read off that one post. Stated for any float family.
-/
import proofs.«177826_j66597762892108_1_alg».proof.Proof.KbRegion0
import proofs.«177826_j66597762892108_1_alg».proof.Proof.KbRegion1
import proofs.«177826_j66597762892108_1_alg».proof.Proof.KbRegion2
import proofs.«177826_j66597762892108_1_alg».proof.Proof.KbShared2
import proofs.«177826_j66597762892108_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- The share held of each operand's array where a region's windows are on distinct arrays: all of it. -/
abbrev qAll : Fin 3 → PosShare TreeShare := fun _ => fullShare
/-- Region 2 reads z through both operand windows: a half of the full share each. -/
abbrev qHalves : Fin 3 → PosShare TreeShare := ![fullShare.left, fullShare.right, fullShare]

/-- At launch. -/
abbrev U0 (c : Dev nD) : Valuation τ sig (Elt F) := fun b => m (c, b)
/-- After the degree count, -/
abbrev U1 (c : Dev nD) : Valuation τ sig (Elt F) := StableHlo.after hostOps0 (U0 m c)
/-- the guard against an empty degree, -/
abbrev U2 (c : Dev nD) : Valuation τ sig (Elt F) := StableHlo.after hostOps0_1 (U1 m c)
/-- and the normalisation of the features: what region 0 finds. -/
abbrev U3 (c : Dev nD) : Valuation τ sig (Elt F) := StableHlo.after hostOps0_2 (U2 m c)
abbrev E0 : (c : Dev nD) → (b : Ref sig .tc) → Buf (Elt F) ((c : Thread nD τ).loc b) := fun c b => U3 m c b
/-- What region 0 leaves in its result array: every block's write-back folded over the entry contents. -/
def o4 (c : Dev nD) : Buf (Elt F) ((c : Thread nD τ).loc main_v12) := (dat0 (E0 m) qAll c).arrAt 2 cfg0.N
/-- After region 0: its result array at what the pipeline leaves, every other buffer as entered. -/
def U4 (c : Dev nD) : Valuation τ sig (Elt F) := Function.update (U3 m c) main_v12 (o4 m c)
abbrev X0 : (c : Dev nD) → (b : Ref sig .tc) → Buf (Elt F) ((c : Thread nD τ).loc b) := fun c b => U4 m c b
/-- After the first layer's gather, segment sum and normalisation, -/
abbrev U5 (c : Dev nD) : Valuation τ sig (Elt F) := StableHlo.after hostOps1 (U4 m c)
/-- its rectifier, -/
abbrev U6 (c : Dev nD) : Valuation τ sig (Elt F) := StableHlo.after hostOps1_1 (U5 m c)
/-- and the second normalisation: what region 1 finds. -/
abbrev U7 (c : Dev nD) : Valuation τ sig (Elt F) := StableHlo.after hostOps1_2 (U6 m c)
abbrev E1 : (c : Dev nD) → (b : Ref sig .tc) → Buf (Elt F) ((c : Thread nD τ).loc b) := fun c b => U7 m c b
def o8 (c : Dev nD) : Buf (Elt F) ((c : Thread nD τ).loc main_v28) := (dat1 (E1 m) qAll c).arrAt 2 cfg1.N
/-- After region 1. -/
def U8 (c : Dev nD) : Valuation τ sig (Elt F) := Function.update (U7 m c) main_v28 (o8 m c)
abbrev X1 : (c : Dev nD) → (b : Ref sig .tc) → Buf (Elt F) ((c : Thread nD τ).loc b) := fun c b => U8 m c b
/-- After the second layer's gather, segment sum and normalisation: what region 2 finds. -/
abbrev U9 (c : Dev nD) : Valuation τ sig (Elt F) := StableHlo.after hostOps2 (U8 m c)
abbrev E2 : (c : Dev nD) → (b : Ref sig .tc) → Buf (Elt F) ((c : Thread nD τ).loc b) := fun c b => U9 m c b
def o10 (c : Dev nD) : Buf (Elt F) ((c : Thread nD τ).loc main_v41) := (dat2 (E2 m) qHalves c).arrAt 2 cfg2.N
/-- After region 2: the end of @main. -/
def U10 (c : Dev nD) : Valuation τ sig (Elt F) := Function.update (U9 m c) main_v41 (o10 m c)
abbrev X2 : (c : Dev nD) → (b : Ref sig .tc) → Buf (Elt F) ((c : Thread nD τ).loc b) := fun c b => U10 m c b

theorem U4_self (c : Dev nD) : U4 m c main_v12 = o4 m c := by unfold U4; exact Function.update_self ..
theorem U4_of_ne (c : Dev nD) (b : Ref sig .tc) (h : b ≠ main_v12) : U4 m c b = U3 m c b := by
  unfold U4; exact Function.update_of_ne (StableHlo.devRef_ne_of_ne h) ..
theorem U8_self (c : Dev nD) : U8 m c main_v28 = o8 m c := by unfold U8; exact Function.update_self ..
theorem U8_of_ne (c : Dev nD) (b : Ref sig .tc) (h : b ≠ main_v28) : U8 m c b = U7 m c b := by
  unfold U8; exact Function.update_of_ne (StableHlo.devRef_ne_of_ne h) ..
theorem U10_self (c : Dev nD) : U10 m c main_v41 = o10 m c := by unfold U10; exact Function.update_self ..
theorem U10_of_ne (c : Dev nD) (b : Ref sig .tc) (h : b ≠ main_v41) : U10 m c b = U9 m c b := by
  unfold U10; exact Function.update_of_ne (StableHlo.devRef_ne_of_ne h) ..

/-- A buffer that no host operation writes and that is no region's result ends as launched. -/
theorem U10_keep (c : Dev nD) (r : Ref sig .tc) (h0 : r ∉ hostOps0_W) (h1 : r ∉ hostOps0_1_W) (h2 : r ∉ hostOps0_2_W) (h3 : r ≠ main_v12)
    (h4 : r ∉ hostOps1_W) (h5 : r ∉ hostOps1_1_W) (h6 : r ∉ hostOps1_2_W) (h7 : r ≠ main_v28) (h8 : r ∉ hostOps2_W) (h9 : r ≠ main_v41) :
    U10 m c r = m ((c : Thread nD τ).loc r) :=
  (U10_of_ne m c r h9).trans <| (StableHlo.after_of_writes_sub hostOps2 _ hostOps2_writes h8).trans <| (U8_of_ne m c r h7).trans <|
  (StableHlo.after_of_writes_sub hostOps1_2 _ hostOps1_2_writes h6).trans <| (StableHlo.after_of_writes_sub hostOps1_1 _ hostOps1_1_writes h5).trans <|
  (StableHlo.after_of_writes_sub hostOps1 _ hostOps1_writes h4).trans <| (U4_of_ne m c r h3).trans <|
  (StableHlo.after_of_writes_sub hostOps0_2 _ hostOps0_2_writes h2).trans <| (StableHlo.after_of_writes_sub hostOps0_1 _ hostOps0_1_writes h1).trans <|
  (StableHlo.after_of_writes_sub hostOps0 _ hostOps0_writes h0).trans rfl

/-! ## Each region's arrays at its exit -/

theorem hF0 (c : Dev nD) : ∀ w : Fin cfg0.W, (dat0 (E0 m) qAll c).arrAt w cfg0.N = X0 m c (Pipeline.arrRef spec0 w)
  | ⟨0, _⟩ => ((dat0 (E0 m) qAll c).arrAt_in 0 rfl _).trans ((A_eq0 (E0 m) qAll c 0).trans (U4_of_ne m c _ (by decide)).symm)
  | ⟨1, _⟩ => ((dat0 (E0 m) qAll c).arrAt_in 1 rfl _).trans ((A_eq0 (E0 m) qAll c 1).trans (U4_of_ne m c _ (by decide)).symm)
  | ⟨2, _⟩ => (U4_self m c).symm
theorem hrest0 (c : Dev nD) : ∀ b, b ∉ Finset.univ.image (Pipeline.arrRef spec0) → X0 m c b = E0 m c b :=
  fun b hb => U4_of_ne m c b fun e => hb (Finset.mem_image.mpr ⟨2, Finset.mem_univ _, e ▸ rfl⟩)

theorem hF1 (c : Dev nD) : ∀ w : Fin cfg1.W, (dat1 (E1 m) qAll c).arrAt w cfg1.N = X1 m c (Pipeline.arrRef spec1 w)
  | ⟨0, _⟩ => ((dat1 (E1 m) qAll c).arrAt_in 0 rfl _).trans ((A_eq1 (E1 m) qAll c 0).trans (U8_of_ne m c _ (by decide)).symm)
  | ⟨1, _⟩ => ((dat1 (E1 m) qAll c).arrAt_in 1 rfl _).trans ((A_eq1 (E1 m) qAll c 1).trans (U8_of_ne m c _ (by decide)).symm)
  | ⟨2, _⟩ => (U8_self m c).symm
theorem hrest1 (c : Dev nD) : ∀ b, b ∉ Finset.univ.image (Pipeline.arrRef spec1) → X1 m c b = E1 m c b :=
  fun b hb => U8_of_ne m c b fun e => hb (Finset.mem_image.mpr ⟨2, Finset.mem_univ _, e ▸ rfl⟩)

theorem hF2_0 (c : Dev nD) : (dat2 (E2 m) qHalves c).arrAt 0 cfg2.N = X2 m c main_v40 :=
  ((dat2 (E2 m) qHalves c).arrAt_in 0 rfl _).trans ((A_eq2 (E2 m) qHalves c 0).trans (U10_of_ne m c _ (by decide)).symm)
theorem hF2_1 (c : Dev nD) : (dat2 (E2 m) qHalves c).arrAt 1 cfg2.N = X2 m c main_v40 :=
  ((dat2 (E2 m) qHalves c).arrAt_in 1 rfl _).trans ((A_eq2 (E2 m) qHalves c 1).trans (U10_of_ne m c _ (by decide)).symm)
theorem hF2_2 (c : Dev nD) : (dat2 (E2 m) qHalves c).arrAt 2 cfg2.N = X2 m c main_v41 := (U10_self m c).symm
theorem hrest2 (c : Dev nD) : ∀ b, b ∉ Finset.univ.image (Pipeline.arrRef spec2) → X2 m c b = E2 m c b :=
  fun b hb => U10_of_ne m c b fun e => hb (Finset.mem_image.mpr ⟨2, Finset.mem_univ _, e ▸ rfl⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) qAll c
  | ⟨1, _⟩ => fun c => dat1 (E1 m) qAll c
  | ⟨2, _⟩ => fun c => dat2 (E2 m) qHalves c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (U10 m c) ∗ ∃ r, prngReg c r)

/-! ## The regions as segments -/

set_option backward.isDefEq.respectTransparency.types false in
/-- Region 0 over the thread state: entered from every unscoped buffer at its entry contents, left with them at its exit
    contents. Its arrays are split out of the unscoped buffers at the entry and put back at the exit; the generator register goes
    into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) qAll c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with them at its exit
    contents. Its arrays are split out of the unscoped buffers at the entry and put back at the exit; the generator register goes
    into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) qAll c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, whose two operand windows are on one array: as the others, but its arrays leave and rejoin the unscoped buffers
    through the equation that splits z between the two windows. It is the last item: it is left at the last thread state. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) qHalves c).loose
  hwaits := Pipeline.hwaits_of_owed_zero _ _ _ _ L lv 2 fun _ _ => rfl
  pre c := iprop(StableHlo.held (c : Thread nD τ) (Pipeline.ucRefs τ sig) (U9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := unscopedBufs_eq_arrays2 (F := F) c (pdats m 2 c) rfl rfl rfl (E2 m c) (pdats m 2 c).A rfl rfl rfl
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_eq_arrays2 (F := F) c (pdats m 2 c) rfl rfl rfl (X2 m c) ((pdats m 2 c).arrAt · cfg2.N)
      (hF2_0 m c) (hF2_1 m c) (hF2_2 m c)
    rw [Pipeline.unscopedBufs_held, ← unscopedRest2_congr (F := F) c (E2 m c) (X2 m c) (hrest2 m c)] at hjoin
    iintro ⟨Ha, HO, HY, Hrest⟩
    imodintro
    isplitl [Ha Hrest HY]
    · isplitl [Ha Hrest]
      · iapply (Entails.of_eq hjoin.symm)
        isplitl [Ha]; · iexact Ha
        iexact Hrest
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .host (hseg hostOps1_1 hostOps1_1_sub hostOps1_1_fresh (U5 m)),
    .host (hseg hostOps1_2 hostOps1_2_sub hostOps1_2_fresh (U6 m)),
    .region (reg1 m),
    .host (hseg hostOps2 hostOps2_sub hostOps2_fresh (U8 m)),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and ends with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U10 m c b)
    (hfin := fun c s' => by
      iintro ⟨⟨Hh, -⟩, HSI⟩
      unfold StableHlo.held
      imodintro
      iapply (pointsTo_read_all (Pipeline.ucRefs τ sig) (fun b => (((c : Thread nD τ)).1, b)) (U10 m c) s')
      isplitl [Hh] <;> iassumption)
    (hQ := fun s h c => h c)

/-- The frame claim: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (U10_keep m c main_arg0 (by decide) (by decide) (by decide) (by decide) (by decide) (by decide) (by decide) (by decide) (by decide) (by decide)),
     (h c _ (mem_uc main_arg1 (by decide))).trans (U10_keep m c main_arg1 (by decide) (by decide) (by decide) (by decide) (by decide) (by decide) (by decide) (by decide) (by decide) (by decide)),
     (h c _ (mem_uc main_arg2 (by decide))).trans (U10_keep m c main_arg2 (by decide) (by decide) (by decide) (by decide) (by decide) (by decide) (by decide) (by decide) (by decide) (by decide)),
     (h c _ (mem_uc main_arg3 (by decide))).trans (U10_keep m c main_arg3 (by decide) (by decide) (by decide) (by decide) (by decide) (by decide) (by decide) (by decide) (by decide) (by decide)),
     (h c _ (mem_uc main_arg4 (by decide))).trans (U10_keep m c main_arg4 (by decide) (by decide) (by decide) (by decide) (by decide) (by decide) (by decide) (by decide) (by decide) (by decide))⟩)
    (run_all m ρ)

end Cert.Kernel.Fr

end
-- ==== Proof.KiRegion0.lean ====
/-
  One product region of the program (pipeline 0 of the three): at every grid point the kernel's body loads its two operand
  blocks whole, multiplies them into a zero accumulator and stores the product over the whole result block. Here: the body as a
  triple over its three staging buffers, the pipeline's proof data at the contents the region finds (with the share held of
  each operand's array a parameter), and the body obligation at every grid point. Stated for any float family.
-/
import proofs.«177826_j66597762892108_1_alg».proof.Proof.Gen.KernelIdeal.Launch
import proofs.«177826_j66597762892108_1_alg».proof.Proof.Gen.KernelIdeal.Skeleton
import proofs.«177826_j66597762892108_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`: the rows of its array that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds the point's block whenever the body runs, whether the pipeline fetched it
    at this point or kept it from the point before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes: each staging buffer whole -/

abbrev r0_0 : Rect S1024x1024 := Rect.unit (s := S1024x1024) ![0, 0] S1024x1024.size inb_S1024x1024_S1024x1024_0_0
abbrev r0_1 : Rect S1024x512 := Rect.unit (s := S1024x512) ![0, 0] S1024x512.size inb_S1024x512_S1024x512_0_0
abbrev r0_2 : Rect S1024x512 := Rect.unit (s := S1024x512) ![0, 0] S1024x512.size inb_S1024x512_S1024x512_0_0

/-- The result's staging buffer after the body: the one store of the product of the two operand blocks, over the whole buffer. -/
def out0_2 (x0 : Vec F S1024x1024 .f32) (x1 : Vec F S1024x512 .f32) : Vec F S1024x512 .f32 :=
  View.canon [⟨r0_2, k0_pay1 (View.ld x0 r0_0) (View.ld x1 r0_1)⟩]

/-- That store covers the buffer. -/
theorem cover0_2 (p0 : Vec F S1024x512 .f32) (y : S1024x512.Idx) :
    ∃ pc ∈ ([⟨r0_2, p0⟩] : List (View.Piece (Elt F) S1024x512 .f32)), y ∈ pc.1.set :=
  View.cover_of_tiled [⟨r0_2, p0⟩] S1024x512.size (by rfl) y

/-! ## The body's triple -/

set_option maxHeartbeats 1000000 in
/-- The kernel body on whole staging buffers, the operands' at contents `x0`, `x1` and the result's at anything, runs to the
    continuation with the operands as they were and the result's buffer at `out0_2 x0 x1`. -/
theorem sound_kernel0 (c : Dev nD) (E : Set ℕ) (i : grid0.Coords) (a0 : Memref sig .tc .vmem S1024x1024 .f32) (ha0 : a0.IsWhole) (a1 : Memref sig .tc .vmem S1024x512 .f32) (ha1 : a1.IsWhole) (a2 : Memref sig .tc .vmem S1024x512 .f32) (ha2 : a2.IsWhole)
    (x0 : Vec F S1024x1024 .f32) (x1 : Vec F S1024x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__dense_proj_kernel i a0 ha0 a1 ha1 a2 ha2) K := by
  simp only [cc0__dense_proj_kernel_eq_skeleton]; unfold cc0__dense_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t` each operand's
    buffer still at its block and the result's at the product of the two blocks; the invariant carries only what the body does
    not touch; nothing owed; `q` the share held of each operand's array. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = out0_2 (iblk0 V c 0 t) (iblk0 V c 1 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-! ## The body obligation, at a generic point -/

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

/-- The body at any point: the operands' buffers hold their blocks, so the body's triple applies; the invariant and what the
    core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V q c) (defs₀ (F := F)) Variants.none () Set.univ := fun t => by
  rw [bigSep_W0, bigSep_W0]
  exact sound_body0 V q c t

end Cert.KernelIdeal.Fr

end
-- ==== Proof.KiRegion1.lean ====
/-
  One product region of the program (pipeline 1 of the three): at every grid point the kernel's body loads its two operand
  blocks whole, multiplies them into a zero accumulator and stores the product over the whole result block. Here: the body as a
  triple over its three staging buffers, the pipeline's proof data at the contents the region finds (with the share held of
  each operand's array a parameter), and the body obligation at every grid point. Stated for any float family.
-/
import proofs.«177826_j66597762892108_1_alg».proof.Proof.Gen.KernelIdeal.Launch
import proofs.«177826_j66597762892108_1_alg».proof.Proof.Gen.KernelIdeal.Skeleton
import proofs.«177826_j66597762892108_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`: the rows of its array that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds the point's block whenever the body runs, whether the pipeline fetched it
    at this point or kept it from the point before (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: each staging buffer whole -/

abbrev r1_0 : Rect S2048x512 := Rect.unit (s := S2048x512) ![0, 0] S2048x512.size inb_S2048x512_S2048x512_0_0
abbrev r1_1 : Rect S512x128 := Rect.unit (s := S512x128) ![0, 0] S512x128.size inb_S512x128_S512x128_0_0
abbrev r1_2 : Rect S2048x128 := Rect.unit (s := S2048x128) ![0, 0] S2048x128.size inb_S2048x128_S2048x128_0_0

/-- The result's staging buffer after the body: the one store of the product of the two operand blocks, over the whole buffer. -/
def out1_2 (x0 : Vec F S2048x512 .f32) (x1 : Vec F S512x128 .f32) : Vec F S2048x128 .f32 :=
  View.canon [⟨r1_2, k1_pay1 (View.ld x0 r1_0) (View.ld x1 r1_1)⟩]

/-- That store covers the buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

/-! ## The body's triple -/

set_option maxHeartbeats 1000000 in
/-- The kernel body on whole staging buffers, the operands' at contents `x0`, `x1` and the result's at anything, runs to the
    continuation with the operands as they were and the result's buffer at `out1_2 x0 x1`. -/
theorem sound_kernel1 (c : Dev nD) (E : Set ℕ) (i : grid1.Coords) (a0 : Memref sig .tc .vmem S2048x512 .f32) (ha0 : a0.IsWhole) (a1 : Memref sig .tc .vmem S512x128 .f32) (ha1 : a1.IsWhole) (a2 : Memref sig .tc .vmem S2048x128 .f32) (ha2 : a2.IsWhole)
    (x0 : Vec F S2048x512 .f32) (x1 : Vec F S512x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out1_2 x0 x1)) -∗ K ⟨⟩))
      ⊢ wp frame (wpE (defs₀ (F := F)) Variants.none c none) E (cc1__dense_proj_kernel i a0 ha0 a1 ha1 a2 ha2) K := by
  simp only [cc1__dense_proj_kernel_eq_skeleton]; unfold cc1__dense_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each operand's
    buffer still at its block and the result's at the product of the two blocks; the invariant carries only what the body does
    not touch; nothing owed; `q` the share held of each operand's array. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = out1_2 (iblk1 V c 0 t) (iblk1 V c 1 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body obligation, at a generic point -/

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any point: the operands' buffers hold their blocks, so the body's triple applies; the invariant and what the
    core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Fr

end
-- ==== Proof.KiRegion2.lean ====
/-
  One product region of the program (pipeline 2 of the three): at every grid point the kernel's body loads its two operand
  blocks whole, multiplies them into a zero accumulator and stores the product over the whole result block. Here: the body as a
  triple over its three staging buffers, the pipeline's proof data at the contents the region finds (with the share held of
  each operand's array a parameter), and the body obligation at every grid point. Stated for any float family.
-/
import proofs.«177826_j66597762892108_1_alg».proof.Proof.Gen.KernelIdeal.Launch
import proofs.«177826_j66597762892108_1_alg».proof.Proof.Gen.KernelIdeal.Skeleton
import proofs.«177826_j66597762892108_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at grid point `t`: the rows of its array that the point's index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds the point's block whenever the body runs, whether the pipeline fetched it
    at this point or kept it from the point before (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the second operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes: each staging buffer whole -/

abbrev r2_0 : Rect S2048x128 := Rect.unit (s := S2048x128) ![0, 0] S2048x128.size inb_S2048x128_S2048x128_0_0
abbrev r2_1 : Rect S2048x128 := Rect.unit (s := S2048x128) ![0, 0] S2048x128.size inb_S2048x128_S2048x128_0_0
abbrev r2_2 : Rect S2048x2048 := Rect.unit (s := S2048x2048) ![0, 0] S2048x2048.size inb_S2048x2048_S2048x2048_0_0

/-- The result's staging buffer after the body: the one store of the product of the two operand blocks, over the whole buffer. -/
def out2_2 (x0 : Vec F S2048x128 .f32) (x1 : Vec F S2048x128 .f32) : Vec F S2048x2048 .f32 :=
  View.canon [⟨r2_2, k2_pay1 (View.ld x0 r2_0) (View.ld x1 r2_1)⟩]

/-- That store covers the buffer. -/
theorem cover2_2 (p0 : Vec F S2048x2048 .f32) (y : S2048x2048.Idx) :
    ∃ pc ∈ ([⟨r2_2, p0⟩] : List (View.Piece (Elt F) S2048x2048 .f32)), y ∈ pc.1.set :=
  View.cover_of_tiled [⟨r2_2, p0⟩] S2048x2048.size (by rfl) y

/-! ## The body's triple -/

set_option maxHeartbeats 1000000 in
/-- The kernel body on whole staging buffers, the operands' at contents `x0`, `x1` and the result's at anything, runs to the
    continuation with the operands as they were and the result's buffer at `out2_2 x0 x1`. -/
theorem sound_kernel2 (c : Dev nD) (E : Set ℕ) (i : grid2.Coords) (a0 : Memref sig .tc .vmem S2048x128 .f32) (ha0 : a0.IsWhole) (a1 : Memref sig .tc .vmem S2048x128 .f32) (ha1 : a1.IsWhole) (a2 : Memref sig .tc .vmem S2048x2048 .f32) (ha2 : a2.IsWhole)
    (x0 : Vec F S2048x128 .f32) (x1 : Vec F S2048x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__zzt_kernel i a0 ha0 a1 ha1 a2 ha2) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each operand's
    buffer still at its block and the result's at the product of the two blocks; the invariant carries only what the body does
    not touch; nothing owed; `q` the share held of each operand's array. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = out2_2 (iblk2 V c 0 t) (iblk2 V c 1 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d

/-! ## The body obligation, at a generic point -/

/-- What the body is called with at point `t`, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

/-- The body at any point: the operands' buffers hold their blocks, so the body's triple applies; the invariant and what the
    core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V q c) (defs₀ (F := F)) Variants.none () Set.univ := fun t => by
  rw [bigSep_W2, bigSep_W2]
  exact sound_body2 V q c t

end Cert.KernelIdeal.Fr

end
-- ==== Proof.KiShared2.lean ====
/-
  Region 2 hands ONE array, z, to both of its operand windows. A core holds z whole; the pipeline wants each window's array at
  a share of its own. Here: a core's unscoped buffers at contents V are exactly the pipeline's arrays — z at the left half of the
  full share for the first operand and at the right half for the second, the result's array at the full share — together with
  every other unscoped buffer at V. Read left to right it splits the arrays out at the region's entry, right to left it puts them
  back at its exit.
-/
import proofs.«177826_j66597762892108_1_alg».proof.Proof.Gen.KernelIdeal.Launch
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind region 2's three windows: the shared operand and the result. -/
theorem arrImage2 : (Finset.univ.image (Pipeline.arrRef spec2) : Finset (Ref sig .tc)) = {main_v40, main_v41} := by decide

theorem unscopedBufs_eq_arrays2 (c : Dev nD) (dat : Dat τ (Elt F) Unit ℕ (UR sig nD τ) ℕ cfg2 c)
    (hs0 : dat.share 0 = fullShare.left) (hs1 : dat.share 1 = fullShare.right) (hs2 : dat.share 2 = fullShare)
    (V : (b : Ref sig .tc) → Buf (Elt F) ((c : Thread nD τ).loc b))
    (Fa : (w : Fin cfg2.W) → Buf (Elt F) ((cfg2.win w).arr.view.loc (c.tc : Thread nD τ)))
    (h0 : Fa 0 = V main_v40) (h1 : Fa 1 = V main_v40) (h2 : Fa 2 = V main_v41) :
    (unscopedBufs c V : sProp 𝕄) = iprop(dat.arrays Fa ∗ Pipeline.unscopedRest spec2 c V) := by
  rw [Pipeline.unscopedBufs_split₀ cfgs 2 winFacts₀2.arr_unscoped c V]
  unfold Pipeline.arrBufs Dat.arrays
  rw [show (Finset.univ.image (Pipeline.arrRef (cfgs 2).spec)) = ({main_v40, main_v41} : Finset (Ref sig .tc)) from arrImage2,
    bigSep_insert (by decide), bigSep_singleton, bigSep_W2]
  rw [hs0, hs1, hs2, h0, h1, h2, (arr_whole2 0).set_eq_univ, (arr_whole2 2).set_eq_univ]
  have key : (iprop((((c.tc : Thread nD τ).loc main_v40 ↦{fullShare} V main_v40) ∗ ((c.tc : Thread nD τ).loc main_v41 ↦{fullShare} V main_v41))
          ∗ Pipeline.unscopedRest spec2 c V) : sProp 𝕄)
      = iprop((((c.tc : Thread nD τ).loc main_v40 ↦{fullShare.left} V main_v40) ∗ ((c.tc : Thread nD τ).loc main_v40 ↦{fullShare.right} V main_v40)
          ∗ ((c.tc : Thread nD τ).loc main_v41 ↦{fullShare} V main_v41)) ∗ Pipeline.unscopedRest spec2 c V) := by
    refine equiv_iff.mp ⟨?_, ?_⟩
    · -- z held whole is z at the two halves
      show (_ : sProp 𝕄) ⊢ _
      iintro ⟨⟨Ha, Hc⟩, Hr⟩
      ihave Hs := (pointsTo_share (PosShare.mem_left_op_right fullShare)).1 $$ Ha
      icases Hs with ⟨Hl, Hrt⟩
      isplitr [Hr]
      · isplitl [Hl]; · iexact Hl
        isplitl [Hrt]; · iexact Hrt
        iexact Hc
      · iexact Hr
    · -- and the two halves make z whole again
      show (_ : sProp 𝕄) ⊢ _
      iintro ⟨⟨Hl, Hrt, Hc⟩, Hr⟩
      isplitr [Hr]
      · isplitl [Hl Hrt]
        · iapply (pointsTo_share (PosShare.mem_left_op_right fullShare)).2
          isplitl [Hl]; · iexact Hl
          iexact Hrt
        · iexact Hc
      · iexact Hr
  exact key

/-- The other unscoped buffers do not care which contents the region's arrays are given. -/
theorem unscopedRest2_congr (c : Dev nD) (V V' : (b : Ref sig .tc) → Buf (Elt F) ((c : Thread nD τ).loc b))
    (hrest : ∀ b, b ∉ Finset.univ.image (Pipeline.arrRef spec2) → V' b = V b) :
    (Pipeline.unscopedRest spec2 c V : sProp 𝕄) = Pipeline.unscopedRest spec2 c V' := by
  unfold Pipeline.unscopedRest
  exact bigSep_congr fun b hb => by rw [hrest b (Finset.mem_sdiff.mp hb).2]

end Cert.KernelIdeal.Fr

end
-- ==== Proof.KiRun.lean ====
/-
  The whole run of the program: the contents of a core's buffers at each boundary of @main (three stretches of host operations,
  the first product region, three more stretches, the second region, one stretch, the third region), the proof data of the three
  pipelines each at the contents its region finds, a segment per item, and the launch: every weakly fair execution terminates and
  ends with every unscoped buffer at the last boundary's contents. Both the frame claim (each argument array ends as launched) and
  the value of the result array are read off that one post. Stated for any float family.
-/
import proofs.«177826_j66597762892108_1_alg».proof.Proof.KiRegion0
import proofs.«177826_j66597762892108_1_alg».proof.Proof.KiRegion1
import proofs.«177826_j66597762892108_1_alg».proof.Proof.KiRegion2
import proofs.«177826_j66597762892108_1_alg».proof.Proof.KiShared2
import proofs.«177826_j66597762892108_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- The share held of each operand's array where a region's windows are on distinct arrays: all of it. -/
abbrev qAll : Fin 3 → PosShare TreeShare := fun _ => fullShare
/-- Region 2 reads z through both operand windows: a half of the full share each. -/
abbrev qHalves : Fin 3 → PosShare TreeShare := ![fullShare.left, fullShare.right, fullShare]

/-- At launch. -/
abbrev U0 (c : Dev nD) : Valuation τ sig (Elt F) := fun b => m (c, b)
/-- After the degree count, -/
abbrev U1 (c : Dev nD) : Valuation τ sig (Elt F) := StableHlo.after hostOps0 (U0 m c)
/-- the guard against an empty degree, -/
abbrev U2 (c : Dev nD) : Valuation τ sig (Elt F) := StableHlo.after hostOps0_1 (U1 m c)
/-- and the normalisation of the features: what region 0 finds. -/
abbrev U3 (c : Dev nD) : Valuation τ sig (Elt F) := StableHlo.after hostOps0_2 (U2 m c)
abbrev E0 : (c : Dev nD) → (b : Ref sig .tc) → Buf (Elt F) ((c : Thread nD τ).loc b) := fun c b => U3 m c b
/-- What region 0 leaves in its result array: every block's write-back folded over the entry contents. -/
def o4 (c : Dev nD) : Buf (Elt F) ((c : Thread nD τ).loc main_v12) := (dat0 (E0 m) qAll c).arrAt 2 cfg0.N
/-- After region 0: its result array at what the pipeline leaves, every other buffer as entered. -/
def U4 (c : Dev nD) : Valuation τ sig (Elt F) := Function.update (U3 m c) main_v12 (o4 m c)
abbrev X0 : (c : Dev nD) → (b : Ref sig .tc) → Buf (Elt F) ((c : Thread nD τ).loc b) := fun c b => U4 m c b
/-- After the first layer's gather, segment sum and normalisation, -/
abbrev U5 (c : Dev nD) : Valuation τ sig (Elt F) := StableHlo.after hostOps1 (U4 m c)
/-- its rectifier, -/
abbrev U6 (c : Dev nD) : Valuation τ sig (Elt F) := StableHlo.after hostOps1_1 (U5 m c)
/-- and the second normalisation: what region 1 finds. -/
abbrev U7 (c : Dev nD) : Valuation τ sig (Elt F) := StableHlo.after hostOps1_2 (U6 m c)
abbrev E1 : (c : Dev nD) → (b : Ref sig .tc) → Buf (Elt F) ((c : Thread nD τ).loc b) := fun c b => U7 m c b
def o8 (c : Dev nD) : Buf (Elt F) ((c : Thread nD τ).loc main_v28) := (dat1 (E1 m) qAll c).arrAt 2 cfg1.N
/-- After region 1. -/
def U8 (c : Dev nD) : Valuation τ sig (Elt F) := Function.update (U7 m c) main_v28 (o8 m c)
abbrev X1 : (c : Dev nD) → (b : Ref sig .tc) → Buf (Elt F) ((c : Thread nD τ).loc b) := fun c b => U8 m c b
/-- After the second layer's gather, segment sum and normalisation: what region 2 finds. -/
abbrev U9 (c : Dev nD) : Valuation τ sig (Elt F) := StableHlo.after hostOps2 (U8 m c)
abbrev E2 : (c : Dev nD) → (b : Ref sig .tc) → Buf (Elt F) ((c : Thread nD τ).loc b) := fun c b => U9 m c b
def o10 (c : Dev nD) : Buf (Elt F) ((c : Thread nD τ).loc main_v41) := (dat2 (E2 m) qHalves c).arrAt 2 cfg2.N
/-- After region 2: the end of @main. -/
def U10 (c : Dev nD) : Valuation τ sig (Elt F) := Function.update (U9 m c) main_v41 (o10 m c)
abbrev X2 : (c : Dev nD) → (b : Ref sig .tc) → Buf (Elt F) ((c : Thread nD τ).loc b) := fun c b => U10 m c b

theorem U4_self (c : Dev nD) : U4 m c main_v12 = o4 m c := by unfold U4; exact Function.update_self ..
theorem U4_of_ne (c : Dev nD) (b : Ref sig .tc) (h : b ≠ main_v12) : U4 m c b = U3 m c b := by
  unfold U4; exact Function.update_of_ne (StableHlo.devRef_ne_of_ne h) ..
theorem U8_self (c : Dev nD) : U8 m c main_v28 = o8 m c := by unfold U8; exact Function.update_self ..
theorem U8_of_ne (c : Dev nD) (b : Ref sig .tc) (h : b ≠ main_v28) : U8 m c b = U7 m c b := by
  unfold U8; exact Function.update_of_ne (StableHlo.devRef_ne_of_ne h) ..
theorem U10_self (c : Dev nD) : U10 m c main_v41 = o10 m c := by unfold U10; exact Function.update_self ..
theorem U10_of_ne (c : Dev nD) (b : Ref sig .tc) (h : b ≠ main_v41) : U10 m c b = U9 m c b := by
  unfold U10; exact Function.update_of_ne (StableHlo.devRef_ne_of_ne h) ..

/-- A buffer that no host operation writes and that is no region's result ends as launched. -/
theorem U10_keep (c : Dev nD) (r : Ref sig .tc) (h0 : r ∉ hostOps0_W) (h1 : r ∉ hostOps0_1_W) (h2 : r ∉ hostOps0_2_W) (h3 : r ≠ main_v12)
    (h4 : r ∉ hostOps1_W) (h5 : r ∉ hostOps1_1_W) (h6 : r ∉ hostOps1_2_W) (h7 : r ≠ main_v28) (h8 : r ∉ hostOps2_W) (h9 : r ≠ main_v41) :
    U10 m c r = m ((c : Thread nD τ).loc r) :=
  (U10_of_ne m c r h9).trans <| (StableHlo.after_of_writes_sub hostOps2 _ hostOps2_writes h8).trans <| (U8_of_ne m c r h7).trans <|
  (StableHlo.after_of_writes_sub hostOps1_2 _ hostOps1_2_writes h6).trans <| (StableHlo.after_of_writes_sub hostOps1_1 _ hostOps1_1_writes h5).trans <|
  (StableHlo.after_of_writes_sub hostOps1 _ hostOps1_writes h4).trans <| (U4_of_ne m c r h3).trans <|
  (StableHlo.after_of_writes_sub hostOps0_2 _ hostOps0_2_writes h2).trans <| (StableHlo.after_of_writes_sub hostOps0_1 _ hostOps0_1_writes h1).trans <|
  (StableHlo.after_of_writes_sub hostOps0 _ hostOps0_writes h0).trans rfl

/-! ## Each region's arrays at its exit -/

theorem hF0 (c : Dev nD) : ∀ w : Fin cfg0.W, (dat0 (E0 m) qAll c).arrAt w cfg0.N = X0 m c (Pipeline.arrRef spec0 w)
  | ⟨0, _⟩ => ((dat0 (E0 m) qAll c).arrAt_in 0 rfl _).trans ((A_eq0 (E0 m) qAll c 0).trans (U4_of_ne m c _ (by decide)).symm)
  | ⟨1, _⟩ => ((dat0 (E0 m) qAll c).arrAt_in 1 rfl _).trans ((A_eq0 (E0 m) qAll c 1).trans (U4_of_ne m c _ (by decide)).symm)
  | ⟨2, _⟩ => (U4_self m c).symm
theorem hrest0 (c : Dev nD) : ∀ b, b ∉ Finset.univ.image (Pipeline.arrRef spec0) → X0 m c b = E0 m c b :=
  fun b hb => U4_of_ne m c b fun e => hb (Finset.mem_image.mpr ⟨2, Finset.mem_univ _, e ▸ rfl⟩)

theorem hF1 (c : Dev nD) : ∀ w : Fin cfg1.W, (dat1 (E1 m) qAll c).arrAt w cfg1.N = X1 m c (Pipeline.arrRef spec1 w)
  | ⟨0, _⟩ => ((dat1 (E1 m) qAll c).arrAt_in 0 rfl _).trans ((A_eq1 (E1 m) qAll c 0).trans (U8_of_ne m c _ (by decide)).symm)
  | ⟨1, _⟩ => ((dat1 (E1 m) qAll c).arrAt_in 1 rfl _).trans ((A_eq1 (E1 m) qAll c 1).trans (U8_of_ne m c _ (by decide)).symm)
  | ⟨2, _⟩ => (U8_self m c).symm
theorem hrest1 (c : Dev nD) : ∀ b, b ∉ Finset.univ.image (Pipeline.arrRef spec1) → X1 m c b = E1 m c b :=
  fun b hb => U8_of_ne m c b fun e => hb (Finset.mem_image.mpr ⟨2, Finset.mem_univ _, e ▸ rfl⟩)

theorem hF2_0 (c : Dev nD) : (dat2 (E2 m) qHalves c).arrAt 0 cfg2.N = X2 m c main_v40 :=
  ((dat2 (E2 m) qHalves c).arrAt_in 0 rfl _).trans ((A_eq2 (E2 m) qHalves c 0).trans (U10_of_ne m c _ (by decide)).symm)
theorem hF2_1 (c : Dev nD) : (dat2 (E2 m) qHalves c).arrAt 1 cfg2.N = X2 m c main_v40 :=
  ((dat2 (E2 m) qHalves c).arrAt_in 1 rfl _).trans ((A_eq2 (E2 m) qHalves c 1).trans (U10_of_ne m c _ (by decide)).symm)
theorem hF2_2 (c : Dev nD) : (dat2 (E2 m) qHalves c).arrAt 2 cfg2.N = X2 m c main_v41 := (U10_self m c).symm
theorem hrest2 (c : Dev nD) : ∀ b, b ∉ Finset.univ.image (Pipeline.arrRef spec2) → X2 m c b = E2 m c b :=
  fun b hb => U10_of_ne m c b fun e => hb (Finset.mem_image.mpr ⟨2, Finset.mem_univ _, e ▸ rfl⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) qAll c
  | ⟨1, _⟩ => fun c => dat1 (E1 m) qAll c
  | ⟨2, _⟩ => fun c => dat2 (E2 m) qHalves c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (U10 m c) ∗ ∃ r, prngReg c r)

/-! ## The regions as segments -/

set_option backward.isDefEq.respectTransparency.types false in
/-- Region 0 over the thread state: entered from every unscoped buffer at its entry contents, left with them at its exit
    contents. Its arrays are split out of the unscoped buffers at the entry and put back at the exit; the generator register goes
    into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) qAll c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with them at its exit
    contents. Its arrays are split out of the unscoped buffers at the entry and put back at the exit; the generator register goes
    into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) qAll c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, whose two operand windows are on one array: as the others, but its arrays leave and rejoin the unscoped buffers
    through the equation that splits z between the two windows. It is the last item: it is left at the last thread state. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) qHalves c).loose
  hwaits := Pipeline.hwaits_of_owed_zero _ _ _ _ L lv 2 fun _ _ => rfl
  pre c := iprop(StableHlo.held (c : Thread nD τ) (Pipeline.ucRefs τ sig) (U9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := unscopedBufs_eq_arrays2 (F := F) c (pdats m 2 c) rfl rfl rfl (E2 m c) (pdats m 2 c).A rfl rfl rfl
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_eq_arrays2 (F := F) c (pdats m 2 c) rfl rfl rfl (X2 m c) ((pdats m 2 c).arrAt · cfg2.N)
      (hF2_0 m c) (hF2_1 m c) (hF2_2 m c)
    rw [Pipeline.unscopedBufs_held, ← unscopedRest2_congr (F := F) c (E2 m c) (X2 m c) (hrest2 m c)] at hjoin
    iintro ⟨Ha, HO, HY, Hrest⟩
    imodintro
    isplitl [Ha Hrest HY]
    · isplitl [Ha Hrest]
      · iapply (Entails.of_eq hjoin.symm)
        isplitl [Ha]; · iexact Ha
        iexact Hrest
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .host (hseg hostOps1_1 hostOps1_1_sub hostOps1_1_fresh (U5 m)),
    .host (hseg hostOps1_2 hostOps1_2_sub hostOps1_2_fresh (U6 m)),
    .region (reg1 m),
    .host (hseg hostOps2 hostOps2_sub hostOps2_fresh (U8 m)),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and ends with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U10 m c b)
    (hfin := fun c s' => by
      iintro ⟨⟨Hh, -⟩, HSI⟩
      unfold StableHlo.held
      imodintro
      iapply (pointsTo_read_all (Pipeline.ucRefs τ sig) (fun b => (((c : Thread nD τ)).1, b)) (U10 m c) s')
      isplitl [Hh] <;> iassumption)
    (hQ := fun s h c => h c)

/-- The frame claim: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (U10_keep m c main_arg0 (by decide) (by decide) (by decide) (by decide) (by decide) (by decide) (by decide) (by decide) (by decide) (by decide)),
     (h c _ (mem_uc main_arg1 (by decide))).trans (U10_keep m c main_arg1 (by decide) (by decide) (by decide) (by decide) (by decide) (by decide) (by decide) (by decide) (by decide) (by decide)),
     (h c _ (mem_uc main_arg2 (by decide))).trans (U10_keep m c main_arg2 (by decide) (by decide) (by decide) (by decide) (by decide) (by decide) (by decide) (by decide) (by decide) (by decide)),
     (h c _ (mem_uc main_arg3 (by decide))).trans (U10_keep m c main_arg3 (by decide) (by decide) (by decide) (by decide) (by decide) (by decide) (by decide) (by decide) (by decide) (by decide)),
     (h c _ (mem_uc main_arg4 (by decide))).trans (U10_keep m c main_arg4 (by decide) (by decide) (by decide) (by decide) (by decide) (by decide) (by decide) (by decide) (by decide) (by decide))⟩)
    (run_all m ρ)

end Cert.KernelIdeal.Fr

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«177826_j66597762892108_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LibRowBlocks.lean ====
/- Two layout facts about matrices handled a block of rows at a time, over generic sizes.

   (1) The product of an [m, k] by a [k, n] matrix accumulated into zero, read at entry (a, b), is the sum over the contracted
       coordinate c of A (a, c) * B (c, b), whatever the operands' float formats (on the extended reals a format is no rounding).
   (2) Two [a, b] matrices laid side by side along the columns into [a, c]: an entry whose column falls in the first b columns
       reads the first matrix there, one whose column is b further reads the second. -/
import Idealize.ShloMosaic.Lib.ValueIdx
import Idealize.ShloMosaic.Lib.Pipeline.Value
import Idealize.ShloMosaic.PureOps.Ideal.Laws
import proofs.«177826_j66597762892108_1_alg».proof.Proof.LibDotRead

noncomputable section

open scoped BigOperators

namespace Cert.RowBlocks

open Idealize.ShloMosaic Idealize.ShloMosaic.ValueIdx

/-- A matmul over a rows-by-columns record into the zero accumulator, read at (a, b): the contraction sum re-indexed by
    the contracted coordinate. -/
theorem matmulZero_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) (ix2 a b) = ∑ c : Fin k, A (ix2 a c) * B (ix2 c b) :=
  (Ideal.matmul_constant_zero_apply _ prec A B (ix2 a b)).trans (Cert.DotRead.sum_contr_plain w A B a b)

variable {α : Type}

/-- Side by side along the columns: a column j of the first matrix. -/
theorem catCols_left {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val = q.val) :
    concatenate ⟨2, ![a, c]⟩ 1 [⟨⟨2, ![a, b]⟩, x⟩, ⟨⟨2, ![a, b]⟩, y⟩] h (ix2 p q) = x (ix2 p j) :=
  concatenate_pair_apply_left (t := ⟨2, ![a, c]⟩) (s₁ := ⟨2, ![a, b]⟩) (s₂ := ⟨2, ![a, b]⟩) (1 : Fin 2) x y h (ix2 p q) rfl (ix2 p j)
    (fun ax => by
      match ax with
      | ⟨0, _⟩ => rfl
      | ⟨1, _⟩ => exact hj)

/-- Side by side along the columns: a column j of the second matrix sits b columns further. -/
theorem catCols_right {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val + b = q.val) :
    concatenate ⟨2, ![a, c]⟩ 1 [⟨⟨2, ![a, b]⟩, x⟩, ⟨⟨2, ![a, b]⟩, y⟩] h (ix2 p q) = y (ix2 p j) :=
  concatenate_pair_apply_right (t := ⟨2, ![a, c]⟩) (s₁ := ⟨2, ![a, b]⟩) (s₂ := ⟨2, ![a, b]⟩) (1 : Fin 2) x y h (ix2 p q) rfl rfl (ix2 p j)
    (fun ax hne => by
      match ax with
      | ⟨0, _⟩ => rfl
      | ⟨1, _⟩ => exact absurd rfl hne)
    (by show j.val + b = q.val; exact hj)

end Cert.RowBlocks

end
-- ==== Proof.LibMatProdT.lean ====
/-
  General lemmas on matrix products over the extended reals.
  * `matProdT A B`: the product of A with the TRANSPOSE of B, entry by entry: (a, b) ↦ ∑ c, A (a, c) · B (b, c).
  * A matmul whose record contracts the last axis of both operands, into the zero accumulator, is `matProdT` (any float
    formats of the operands: at the ideal instance a change of format is the identity).
  * A matmul over a rows-by-columns record into the zero accumulator is `matProd`, for any float formats.
  * The rows-by-columns product with a transposed right operand is `matProdT`.
-/
import Idealize.ShloMosaic.Lib.ValueIdx
import Idealize.ShloMosaic.Lib.ValueLayout
import Idealize.ShloMosaic.PureOps.Ideal.Laws
import proofs.«177826_j66597762892108_1_alg».proof.Proof.LibDotReadRhsT
import proofs.«177826_j66597762892108_1_alg».proof.Proof.LibMatProd
import proofs.«177826_j66597762892108_1_alg».proof.Proof.LibRowBlocks

noncomputable section

open scoped BigOperators

namespace Cert.MatProdT

open Idealize.ShloMosaic Idealize.ShloMosaic.ValueIdx

/-- The product of `A` with the transpose of `B`, entry by entry. -/
def matProdT {m k n : Nat} (A : (⟨2, ![m, k]⟩ : Shape).Idx → EReal) (B : (⟨2, ![n, k]⟩ : Shape).Idx → EReal) :
    (⟨2, ![m, n]⟩ : Shape).Idx → EReal :=
  fun i => ∑ c : Fin k, A (ix2 (i 0) c) * B (ix2 (i 1) c)

theorem matProdT_ix2 {m k n : Nat} (A : (⟨2, ![m, k]⟩ : Shape).Idx → EReal) (B : (⟨2, ![n, k]⟩ : Shape).Idx → EReal)
    (a : Fin m) (b : Fin n) : matProdT A B (ix2 a b) = ∑ c : Fin k, A (ix2 a c) * B (ix2 b c) := rfl

/-- A matmul that contracts the last axis of both operands, into the zero accumulator, is the product with the transpose. -/
theorem matmulZeroT_eq {m k n : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) :
    matmul (⟨[1], [1], [0], [0], [], [], w⟩ : DotDims ⟨2, ![m, k]⟩ ⟨2, ![n, k]⟩ ⟨2, ![m, n]⟩) prec A B
      (constant (F := Ideal) ⟨2, ![m, n]⟩ .f32 0x00000000#32) = matProdT A B := by
  funext i
  obtain ⟨a, b, rfl⟩ : ∃ (a : Fin m) (b : Fin n), i = ix2 a b := ⟨i 0, i 1, eq_ix2 i⟩
  exact (Ideal.matmul_constant_zero_apply _ prec A B (ix2 a b)).trans (Cert.DotReadRhsT.sum_contr_rhsT w A B a b)

/-- A matmul over a rows-by-columns record into the zero accumulator is the matrix product, whatever the operands' formats. -/
theorem matmulZero_eq_any {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = Cert.MatProd.matProd A B := by
  funext i
  obtain ⟨a, b, rfl⟩ : ∃ (a : Fin m) (b : Fin n), i = ix2 a b := ⟨i 0, i 1, eq_ix2 i⟩
  exact Cert.RowBlocks.matmulZero_apply w prec A B a b

/-- Multiplying by a transposed matrix on the right is the product with the transpose. -/
theorem matProd_transpose {m k n : Nat} (A : (⟨2, ![m, k]⟩ : Shape).Idx → EReal) (B : (⟨2, ![n, k]⟩ : Shape).Idx → EReal)
    (h : (⟨2, ![n, k]⟩ : Shape).Transposes [1, 0] ⟨2, ![k, n]⟩) :
    Cert.MatProd.matProd A (transpose ⟨2, ![k, n]⟩ [1, 0] B h) = matProdT A B := by
  funext i
  obtain ⟨a, b, rfl⟩ : ∃ (a : Fin m) (b : Fin n), i = ix2 a b := ⟨i 0, i 1, eq_ix2 i⟩
  rw [Cert.MatProd.matProd_ix2, matProdT_ix2]
  refine Finset.sum_congr rfl fun c _ => ?_
  rw [transpose_ix2_apply]

end Cert.MatProdT

end
-- ==== Proof.KiValue0.lean ====
/-
  What region 0 computes, over the extended reals. At every grid point the body multiplies a block of 1024 rows of the left array
  (all 1024 columns) with the whole right array into a zero accumulator; the changes of float format around the product are the
  identity. So what point t writes back is rows 1024·t … 1024·t + 1023 of the matrix product of the two whole arrays, and the sixteen
  blocks tile the result array: after the region it holds the matrix product.
-/
import proofs.«177826_j66597762892108_1_alg».proof.Proof.KiRegion0
import proofs.«177826_j66597762892108_1_alg».proof.Proof.LibMatProdT
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem Idealize.SL.RA
open Idealize.ShloMosaic.Pipeline (Dat Cfg Window)
open Cert.MatProd Cert.MatProdT

variable (V : (c : Dev nD) → (b : Ref sig .tc) → Buf (Elt Ideal) ((c : Thread nD τ).loc b)) (q : Fin cfg0.W → PosShare TreeShare)

/-- The left operand's block at a point, the right operand's, and the two whole arrays, as functions into the extended reals. -/
abbrev xblk0 (c : Dev nD) (t : Fin cfg0.N) : S1024x1024.Idx → EReal := iblk0 V c 0 t
abbrev wblk0 (c : Dev nD) (t : Fin cfg0.N) : S1024x512.Idx → EReal := iblk0 V c 1 t
abbrev xarr0 (c : Dev nD) : S16384x1024.Idx → EReal := V c main_v11
abbrev warr0 (c : Dev nD) : S1024x512.Idx → EReal := V c main_arg3

theorem hz0 : (![0, 0] : Fin 2 → Nat) = fun _ => 0 := funext fun a => by fin_cases a <;> rfl

/-- The payload is the matrix product of the two loaded blocks. -/
theorem pay0_eq (x0 : Vec Ideal S1024x1024 .f32) (x1 : Vec Ideal S1024x512 .f32) : k0_pay1 (F := Ideal) x0 x1 = matProd x0 x1 := by
  simp only [k0_pay1, shapeCast_self]
  exact matmulZero_eq_any _ none _ _

/-- The index maps over the grid: the left operand's row block is the result's, every other block index is 0. -/
theorem idx_facts0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 15 :=
  (by decide +kernel : ∀ t : Fin grid0.N, _)

/-- Every row block of the result is some point's. -/
theorem idx_onto0 : ∀ (q0 : Fin 16), ∃ t : Fin cfg0.N, win0_2.index t (0 : Fin 2) = q0.val :=
  (by decide +kernel : ∀ (q0 : Fin 16), ∃ t : Fin grid0.N, win0_2.index t (0 : Fin 2) = q0.val)

/-- What point t writes back is its block of the product of the whole arrays. -/
theorem flushed0_eq (c : Dev nD) (t : Fin cfg0.N) :
    (dat0 V q c).flushed 2 t = ((cfg0.win 2).blk t).view.read (Elt Ideal) (matProd (xarr0 V c) (warr0 V c)) := by
  show (cfg0.win 2).cut (grid0.coords t) ((dat0 V q c).after 2 t) = _
  rw [after0_2]
  unfold out0_2
  rw [View.canon_unit_zero hz0]
  simp only [View.ld_unit_zero (S := S1024x1024) hz0, View.ld_unit_zero (S := S1024x512) hz0]
  rw [pay0_eq]
  obtain ⟨e0, e1, e2, e3, e4, e5⟩ := idx_facts0 t
  funext j
  show (∑ k : Fin 1024, xblk0 V c t (ix2 (j 0) k) * wblk0 V c t (ix2 k (j 1)))
     = ∑ k : Fin 1024, xarr0 V c (ix2 ((((cfg0.win 2).blk t).view.emb j) 0) k) * warr0 V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 1024 + 1 * k.val = k.val; omega
    | ⟨1, _⟩ => show win0_1.index t (1 : Fin 2) * 512 + 1 * (j 1).val = win0_2.index t (1 : Fin 2) * 512 + 1 * (j 1).val; omega
  show xarr0 V c (((cfg0.win 0).blk t).view.emb (ix2 (j 0) k)) * warr0 V c (((cfg0.win 1).blk t).view.emb (ix2 k (j 1))) = _
  rw [h0, h1]
  rfl

/-- An index of the result array is in point t's block iff each coordinate is in the block's range on its axis. -/
theorem mem_blk0 (t : Fin cfg0.N) (i : S16384x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v12).slice (win0_2.rect t)).set ↔ _
  rw [View.set_slice_whole, Rect.mem_set_unit]
  exact Iff.rfl

/-- The sixteen row blocks tile the result array: row r is in the block of the point whose row-block index is r / 1024. -/
theorem cover0 (i : S16384x512.Idx) : ∃ t : Fin cfg0.N, (cfg0.win 2).flush t = true ∧ i ∈ ((cfg0.win 2).blk t).view.set := by
  have hi0 : (i 0).val < 16384 := (i 0).isLt
  have hi1 : (i 1).val < 512 := (i 1).isLt
  obtain ⟨t, ht⟩ := idx_onto0 ⟨(i 0).val / 1024, by omega⟩
  have q0 : win0_2.index t (0 : Fin 2) = (i 0).val / 1024 := ht
  obtain ⟨e0, e1, e2, e3, e4, e5⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- After region 0 its result array holds the matrix product of the two operand arrays as the region found them. -/
theorem array0 (c : Dev nD) : (dat0 V q c).arrAt 2 cfg0.N = matProd (xarr0 V c) (warr0 V c) :=
  (dat0 V q c).arrAt_eq_of_cover 2 _ (fun t _ => flushed0_eq V q c t) cover0

end Cert.KernelIdeal.Val

end
-- ==== Proof.KiValue1.lean ====
/-
  What region 1 computes, over the extended reals. At every grid point the body multiplies a block of 2048 rows of the left array
  (all 512 columns) with the whole right array into a zero accumulator; the changes of float format around the product are the
  identity. So what point t writes back is rows 2048·t … 2048·t + 2047 of the matrix product of the two whole arrays, and the eight
  blocks tile the result array: after the region it holds the matrix product.
-/
import proofs.«177826_j66597762892108_1_alg».proof.Proof.KiRegion1
import proofs.«177826_j66597762892108_1_alg».proof.Proof.LibMatProdT
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem Idealize.SL.RA
open Idealize.ShloMosaic.Pipeline (Dat Cfg Window)
open Cert.MatProd Cert.MatProdT

variable (V : (c : Dev nD) → (b : Ref sig .tc) → Buf (Elt Ideal) ((c : Thread nD τ).loc b)) (q : Fin cfg1.W → PosShare TreeShare)

/-- The left operand's block at a point, the right operand's, and the two whole arrays, as functions into the extended reals. -/
abbrev xblk1 (c : Dev nD) (t : Fin cfg1.N) : S2048x512.Idx → EReal := iblk1 V c 0 t
abbrev wblk1 (c : Dev nD) (t : Fin cfg1.N) : S512x128.Idx → EReal := iblk1 V c 1 t
abbrev xarr1 (c : Dev nD) : S16384x512.Idx → EReal := V c main_v27
abbrev warr1 (c : Dev nD) : S512x128.Idx → EReal := V c main_arg4

theorem hz1 : (![0, 0] : Fin 2 → Nat) = fun _ => 0 := funext fun a => by fin_cases a <;> rfl

/-- The payload is the matrix product of the two loaded blocks. -/
theorem pay1_eq (x0 : Vec Ideal S2048x512 .f32) (x1 : Vec Ideal S512x128 .f32) : k1_pay1 (F := Ideal) x0 x1 = matProd x0 x1 := by
  simp only [k1_pay1, shapeCast_self]
  exact matmulZero_eq_any _ none _ _

/-- The index maps over the grid: the left operand's row block is the result's, every other block index is 0. -/
theorem idx_facts1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 ∧ win1_2.index t (0 : Fin 2) ≤ 7 :=
  (by decide +kernel : ∀ t : Fin grid1.N, _)

/-- Every row block of the result is some point's. -/
theorem idx_onto1 : ∀ (q0 : Fin 8), ∃ t : Fin cfg1.N, win1_2.index t (0 : Fin 2) = q0.val :=
  (by decide +kernel : ∀ (q0 : Fin 8), ∃ t : Fin grid1.N, win1_2.index t (0 : Fin 2) = q0.val)

/-- What point t writes back is its block of the product of the whole arrays. -/
theorem flushed1_eq (c : Dev nD) (t : Fin cfg1.N) :
    (dat1 V q c).flushed 2 t = ((cfg1.win 2).blk t).view.read (Elt Ideal) (matProd (xarr1 V c) (warr1 V c)) := by
  show (cfg1.win 2).cut (grid1.coords t) ((dat1 V q c).after 2 t) = _
  rw [after1_2]
  unfold out1_2
  rw [View.canon_unit_zero hz1]
  simp only [View.ld_unit_zero (S := S2048x512) hz1, View.ld_unit_zero (S := S512x128) hz1]
  rw [pay1_eq]
  obtain ⟨e0, e1, e2, e3, e4, e5⟩ := idx_facts1 t
  funext j
  show (∑ k : Fin 512, xblk1 V c t (ix2 (j 0) k) * wblk1 V c t (ix2 k (j 1)))
     = ∑ k : Fin 512, xarr1 V c (ix2 ((((cfg1.win 2).blk t).view.emb j) 0) k) * warr1 V c (ix2 k ((((cfg1.win 2).blk t).view.emb j) 1))
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 2048 + 1 * (j 0).val = win1_2.index t (0 : Fin 2) * 2048 + 1 * (j 0).val; omega
    | ⟨1, _⟩ => show win1_0.index t (1 : Fin 2) * 512 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 512 + 1 * k.val = k.val; omega
    | ⟨1, _⟩ => show win1_1.index t (1 : Fin 2) * 128 + 1 * (j 1).val = win1_2.index t (1 : Fin 2) * 128 + 1 * (j 1).val; omega
  show xarr1 V c (((cfg1.win 0).blk t).view.emb (ix2 (j 0) k)) * warr1 V c (((cfg1.win 1).blk t).view.emb (ix2 k (j 1))) = _
  rw [h0, h1]
  rfl

/-- An index of the result array is in point t's block iff each coordinate is in the block's range on its axis. -/
theorem mem_blk1 (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v28).slice (win1_2.rect t)).set ↔ _
  rw [View.set_slice_whole, Rect.mem_set_unit]
  exact Iff.rfl

/-- The eight row blocks tile the result array: row r is in the block of the point whose row-block index is r / 2048. -/
theorem cover1 (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  obtain ⟨t, ht⟩ := idx_onto1 ⟨(i 0).val / 2048, by omega⟩
  have q0 : win1_2.index t (0 : Fin 2) = (i 0).val / 2048 := ht
  obtain ⟨e0, e1, e2, e3, e4, e5⟩ := idx_facts1 t
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 128 ≤ (i 1).val ∧ (i 1).val < win1_2.index t (1 : Fin 2) * 128 + 128; omega

/-- After region 1 its result array holds the matrix product of the two operand arrays as the region found them. -/
theorem array1 (c : Dev nD) : (dat1 V q c).arrAt 2 cfg1.N = matProd (xarr1 V c) (warr1 V c) :=
  (dat1 V q c).arrAt_eq_of_cover 2 _ (fun t _ => flushed1_eq V q c t) cover1

end Cert.KernelIdeal.Val

end
-- ==== Proof.KiValue2.lean ====
/-
  What region 2 computes, over the extended reals. The grid is 8 × 8. At point (a, b) the body multiplies rows 2048·a … of z (all
  128 columns) with the TRANSPOSE of rows 2048·b … of z into a zero accumulator, and stores the 2048 × 2048 product as block (a, b)
  of the result. So what the point writes back is block (a, b) of z · zᵀ, entry (r, s) ↦ ∑ k, z (r, k) · z (s, k), and the 64 blocks
  tile the result array: after the region it holds z · zᵀ.
-/
import proofs.«177826_j66597762892108_1_alg».proof.Proof.KiRegion2
import proofs.«177826_j66597762892108_1_alg».proof.Proof.LibMatProdT
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem Idealize.SL.RA
open Idealize.ShloMosaic.Pipeline (Dat Cfg Window)
open Cert.MatProd Cert.MatProdT

variable (V : (c : Dev nD) → (b : Ref sig .tc) → Buf (Elt Ideal) ((c : Thread nD τ).loc b)) (q : Fin cfg2.W → PosShare TreeShare)

/-- The two operand blocks at a point and the array z both are cut from, as functions into the extended reals. -/
abbrev lblk2 (c : Dev nD) (t : Fin cfg2.N) : S2048x128.Idx → EReal := iblk2 V c 0 t
abbrev rblk2 (c : Dev nD) (t : Fin cfg2.N) : S2048x128.Idx → EReal := iblk2 V c 1 t
abbrev zarr2 (c : Dev nD) : S16384x128.Idx → EReal := V c main_v40

theorem hz2 : (![0, 0] : Fin 2 → Nat) = fun _ => 0 := funext fun a => by fin_cases a <;> rfl

/-- The payload is the product of the first block with the transpose of the second. -/
theorem pay2_eq (x0 : Vec Ideal S2048x128 .f32) (x1 : Vec Ideal S2048x128 .f32) : k2_pay1 (F := Ideal) x0 x1 = matProdT x0 x1 := by
  simp only [k2_pay1, shapeCast_self]
  exact matmulZeroT_eq _ none _ _

/-- The index maps over the grid: the left operand's row block is the result's row block, the right operand's row block is the
    result's column block, and the operands' column block is 0. -/
theorem idx_facts2 : ∀ t : Fin cfg2.N, win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 7 :=
  (by decide +kernel : ∀ t : Fin grid2.N, _)

/-- Every block of the result is some point's. -/
theorem idx_onto2 : ∀ (q0 q1 : Fin 8), ∃ t : Fin cfg2.N, win2_2.index t (0 : Fin 2) = q0.val ∧ win2_2.index t (1 : Fin 2) = q1.val :=
  (by decide +kernel : ∀ (q0 q1 : Fin 8), ∃ t : Fin grid2.N, win2_2.index t (0 : Fin 2) = q0.val ∧ win2_2.index t (1 : Fin 2) = q1.val)

/-- What point t writes back is its block of z · zᵀ. -/
theorem flushed2_eq (c : Dev nD) (t : Fin cfg2.N) :
    (dat2 V q c).flushed 2 t = ((cfg2.win 2).blk t).view.read (Elt Ideal) (matProdT (zarr2 V c) (zarr2 V c)) := by
  show (cfg2.win 2).cut (grid2.coords t) ((dat2 V q c).after 2 t) = _
  rw [after2_2]
  unfold out2_2
  rw [View.canon_unit_zero hz2]
  simp only [View.ld_unit_zero (S := S2048x128) hz2]
  rw [pay2_eq]
  obtain ⟨e0, e1, e2, e3, e4, e5⟩ := idx_facts2 t
  funext j
  show (∑ k : Fin 128, lblk2 V c t (ix2 (j 0) k) * rblk2 V c t (ix2 (j 1) k))
     = ∑ k : Fin 128, zarr2 V c (ix2 ((((cfg2.win 2).blk t).view.emb j) 0) k) * zarr2 V c (ix2 ((((cfg2.win 2).blk t).view.emb j) 1) k)
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 128 + 1 * k.val = k.val; omega
  have h1 : ((cfg2.win 1).blk t).view.emb (ix2 (j 1) k) = ix2 ((((cfg2.win 2).blk t).view.emb j) 1) k := by
    funext a; apply Fin.ext
    match a with
    | ⟨0, _⟩ => show win2_1.index t (0 : Fin 2) * 2048 + 1 * (j 1).val = win2_2.index t (1 : Fin 2) * 2048 + 1 * (j 1).val; omega
    | ⟨1, _⟩ => show win2_1.index t (1 : Fin 2) * 128 + 1 * k.val = k.val; omega
  show zarr2 V c (((cfg2.win 0).blk t).view.emb (ix2 (j 0) k)) * zarr2 V c (((cfg2.win 1).blk t).view.emb (ix2 (j 1) k)) = _
  rw [h0, h1]
  rfl

/-- An index of the result array is in point t's block iff each coordinate is in the block's range on its axis. -/
theorem mem_blk2 (t : Fin cfg2.N) (i : S16384x16384.Idx) :
    i ∈ ((cfg2.win 2).blk t).view.set ↔ ∀ a : Fin 2, win2_2.index t a * S2048x2048.size a ≤ (i a).val ∧ (i a).val < win2_2.index t a * S2048x2048.size a + S2048x2048.size a := by
  show i ∈ ((View.whole main_v41).slice (win2_2.rect t)).set ↔ _
  rw [View.set_slice_whole, Rect.mem_set_unit]
  exact Iff.rfl

/-- The 64 blocks tile the result array: entry (r, s) is in the block of the point whose block indices are (r / 2048, s / 2048). -/
theorem cover2 (i : S16384x16384.Idx) : ∃ t : Fin cfg2.N, (cfg2.win 2).flush t = true ∧ i ∈ ((cfg2.win 2).blk t).view.set := by
  have hi0 : (i 0).val < 16384 := (i 0).isLt
  have hi1 : (i 1).val < 16384 := (i 1).isLt
  obtain ⟨t, ht0, ht1⟩ := idx_onto2 ⟨(i 0).val / 2048, by omega⟩ ⟨(i 1).val / 2048, by omega⟩
  have q0 : win2_2.index t (0 : Fin 2) = (i 0).val / 2048 := ht0
  have q1 : win2_2.index t (1 : Fin 2) = (i 1).val / 2048 := ht1
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 2048 ≤ (i 1).val ∧ (i 1).val < win2_2.index t (1 : Fin 2) * 2048 + 2048; omega

/-- After region 2 its result array holds z · zᵀ, z the array both operand windows read. -/
theorem array2 (c : Dev nD) : (dat2 V q c).arrAt 2 cfg2.N = matProdT (zarr2 V c) (zarr2 V c) :=
  (dat2 V q c).arrAt_eq_of_cover 2 _ (fun t _ => flushed2_eq V q c t) cover2

end Cert.KernelIdeal.Val

end
-- ==== Proof.Bridge.lean ====
/-
  The kernel's program and the reference compute the same array. Both run the same host operations around three products; the
  kernel does each product in a pipelined region, the reference as a host contraction (the last one after a transpose). Buffer by
  buffer, following the program's order, the contents the kernel's run leaves are the reference's stage for that buffer as a function
  of the five arguments: a stretch of host operations is the same operations on equal operands, and a region's result array is the
  matrix product (Val.array0, array1) or z · zᵀ (array2), which is what the host contraction computes over the extended reals.
-/
import proofs.«177826_j66597762892108_1_alg».proof.Proof.KiRun
import proofs.«177826_j66597762892108_1_alg».proof.Proof.KiValue0
import proofs.«177826_j66597762892108_1_alg».proof.Proof.KiValue1
import proofs.«177826_j66597762892108_1_alg».proof.Proof.KiValue2
import proofs.«177826_j66597762892108_1_alg».proof.Proof.RefRead
import Idealize.ShloMosaic.Lib.StableHlo.Run

set_option maxRecDepth 16384

noncomputable section

namespace Cert.Bridge

open Cert.KernelIdeal Cert.KernelIdeal.Gen Cert.KernelIdeal.Fr Cert.KernelIdeal.Val
open Idealize.ShloMosaic Idealize.ShloMosaic.TcCoe Idealize.SL.Sem Idealize.ShloMosaic.StableHlo
open Cert.MatProd Cert.MatProdT

variable (m : (ℓ : Loc nD τ sig) → Buf (Elt Ideal) ℓ) (c : Dev nD)

/-- The five arguments as launched: the features, the edges' sources and destinations, the two weight matrices. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)

/-! ## Buffers no item has written yet -/

theorem U3_keep (r : Ref sig .tc) (h0 : r ∉ hostOps0_W) (h1 : r ∉ hostOps0_1_W) (h2 : r ∉ hostOps0_2_W) :
    U3 m c r = m ((c : Thread nD τ).loc r) :=
  (after_of_writes_sub hostOps0_2 _ hostOps0_2_writes h2).trans <| (after_of_writes_sub hostOps0_1 _ hostOps0_1_writes h1).trans <|
  (after_of_writes_sub hostOps0 _ hostOps0_writes h0).trans rfl
theorem U4_keep (r : Ref sig .tc) (h0 : r ∉ hostOps0_W) (h1 : r ∉ hostOps0_1_W) (h2 : r ∉ hostOps0_2_W) (h3 : r ≠ main_v12) :
    U4 m c r = m ((c : Thread nD τ).loc r) :=
  (U4_of_ne m c r h3).trans (U3_keep m c r h0 h1 h2)
theorem U7_of (r : Ref sig .tc) (h4 : r ∉ hostOps1_W) (h5 : r ∉ hostOps1_1_W) (h6 : r ∉ hostOps1_2_W) : U7 m c r = U4 m c r :=
  (after_of_writes_sub hostOps1_2 _ hostOps1_2_writes h6).trans <| (after_of_writes_sub hostOps1_1 _ hostOps1_1_writes h5).trans <|
  (after_of_writes_sub hostOps1 _ hostOps1_writes h4)
theorem U8_of (r : Ref sig .tc) (h4 : r ∉ hostOps1_W) (h5 : r ∉ hostOps1_1_W) (h6 : r ∉ hostOps1_2_W) (h7 : r ≠ main_v28) : U8 m c r = U4 m c r :=
  (U8_of_ne m c r h7).trans (U7_of m c r h4 h5 h6)

/-! ## The first layer -/

/-- The normalisation column deg^(-1/2), as the first three stretches leave it. -/
theorem v9_eq : U3 m c main_v9 = Cert.ReferenceIdeal.ReadP.val_main_v9 (F := Ideal) (a1 m c) := by
  show StableHlo.after hostOps0_2 (StableHlo.after hostOps0_1 (StableHlo.after hostOps0 (U0 m c))) (Proc.devRef .tc main_v9) = _
  dsimp only [hostOps0, hostOps0_1, hostOps0_2]
  after_results
  try simp only [TRef.ofBuf, TRef.toBuf, cast_eq]
  rfl

/-- The normalised features, the left operand of region 0. -/
theorem v11_eq : U3 m c main_v11 = Cert.ReferenceIdeal.ReadP.val_main_v11 (F := Ideal) (a0 m c) (a1 m c) := by
  show StableHlo.after hostOps0_2 (StableHlo.after hostOps0_1 (StableHlo.after hostOps0 (U0 m c))) (Proc.devRef .tc main_v11) = _
  dsimp only [hostOps0, hostOps0_1, hostOps0_2]
  after_results
  try simp only [TRef.ofBuf, TRef.toBuf, cast_eq]
  rfl

/-- Region 0's result: the product of the normalised features with the first weight matrix, which is the reference's contraction. -/
theorem v12_eq : U4 m c main_v12 = Cert.ReferenceIdeal.ReadP.val_main_v12 (F := Ideal) (a0 m c) (a1 m c) (a3 m c) := by
  rw [U4_self]
  unfold o4
  rw [array0]
  show matProd (U3 m c main_v11) (U3 m c main_arg3) = _
  rw [v11_eq, U3_keep m c main_arg3 (by decide) (by decide) (by decide)]
  exact (hostDot_eq _ none _ _).symm

theorem U4_v9 : U4 m c main_v9 = Cert.ReferenceIdeal.ReadP.val_main_v9 (F := Ideal) (a1 m c) := (U4_of_ne m c main_v9 (by decide)).trans (v9_eq m c)

/-- Gathered along the edges' destinations, summed into their sources, normalised, rectified and normalised again: the left
    operand of region 1. -/
theorem v27_eq : U7 m c main_v27 = Cert.ReferenceIdeal.ReadP.val_main_v27 (F := Ideal) (a0 m c) (a1 m c) (a2 m c) (a3 m c) := by
  show StableHlo.after hostOps1_2 (StableHlo.after hostOps1_1 (StableHlo.after hostOps1 (U4 m c))) (Proc.devRef .tc main_v27) = _
  dsimp only [hostOps1, hostOps1_1, hostOps1_2]
  after_results
  try simp only [TRef.ofBuf, TRef.toBuf, cast_eq]
  rw [v12_eq, U4_v9, U4_keep m c main_arg1 (by decide) (by decide) (by decide) (by decide), U4_keep m c main_arg2 (by decide) (by decide) (by decide) (by decide)]
  rfl

/-! ## The second layer -/

/-- Region 1's result. -/
theorem v28_eq : U8 m c main_v28 = Cert.ReferenceIdeal.ReadP.val_main_v28 (F := Ideal) (a0 m c) (a1 m c) (a2 m c) (a3 m c) (a4 m c) := by
  rw [U8_self]
  unfold o8
  rw [array1]
  show matProd (U7 m c main_v27) (U7 m c main_arg4) = _
  rw [v27_eq, U7_of m c main_arg4 (by decide) (by decide) (by decide), U4_keep m c main_arg4 (by decide) (by decide) (by decide) (by decide)]
  exact (hostDot_eq _ none _ _).symm

theorem U8_v9 : U8 m c main_v9 = Cert.ReferenceIdeal.ReadP.val_main_v9 (F := Ideal) (a1 m c) :=
  (U8_of m c main_v9 (by decide) (by decide) (by decide) (by decide)).trans (U4_v9 m c)
theorem U8_arg1 : U8 m c main_arg1 = a1 m c :=
  (U8_of m c main_arg1 (by decide) (by decide) (by decide) (by decide)).trans (U4_keep m c main_arg1 (by decide) (by decide) (by decide) (by decide))
theorem U8_arg2 : U8 m c main_arg2 = a2 m c :=
  (U8_of m c main_arg2 (by decide) (by decide) (by decide) (by decide)).trans (U4_keep m c main_arg2 (by decide) (by decide) (by decide) (by decide))

/-- The embedding z: the second layer's gather, segment sum and normalisation. -/
theorem v40_eq : U9 m c main_v40 = Cert.ReferenceIdeal.ReadP.val_main_v40 (F := Ideal) (a0 m c) (a1 m c) (a2 m c) (a3 m c) (a4 m c) := by
  show StableHlo.after hostOps2 (U8 m c) (Proc.devRef .tc main_v40) = _
  dsimp only [hostOps2]
  after_results
  try simp only [TRef.ofBuf, TRef.toBuf, cast_eq]
  rw [v28_eq, U8_v9, U8_arg1, U8_arg2]
  rfl

/-! ## The decoder -/

/-- Region 2's result z · zᵀ is the reference's contraction of z with its transpose. -/
theorem result_eq : o10 m c = Cert.ReferenceIdeal.ReadP.val_main_v42 (F := Ideal) (a0 m c) (a1 m c) (a2 m c) (a3 m c) (a4 m c) := by
  unfold o10
  rw [array2]
  show matProdT (U9 m c main_v40) (U9 m c main_v40) = _
  rw [v40_eq]
  exact (matProd_transpose _ _ _).symm.trans (hostDot_eq _ none _ _).symm

end Cert.Bridge

end
-- ==== Proof.lean ====
/-
  A two-layer graph convolution and an inner-product decoder: with deg the number of edges leaving each node and norm = max-guarded
  deg^(-1/2), each layer is  x ↦ norm · segment_sum ((norm · x) W)[dst] by src,  rectified after the first layer, and the result is
  z · zᵀ for the second layer's output z. The kernel's program does the three products (norm·h)·W0, (·)·W1 and z·zᵀ in pipelined
  regions over row blocks (the last over an 8 × 8 grid of blocks, reading z through two windows), with bf16 casts around each
  product; the reference does them as host contractions, the last after a transpose. Every other operation is the same host
  operation in both programs.

  Over the extended reals the casts are the identity and a product into a zero accumulator is the plain sum over the contracted
  index, so each region's result array is the matrix product of its operand arrays (z · zᵀ for the last), which is also what the
  host contraction is; the sums are the same sums term by term, so no finiteness of the inputs is used. The three frame claims:
  each program runs to its end without a fault and leaves its five argument arrays as launched; the ideal pass rewrote nothing, so
  `preserves` is `True`.
-/
import proofs.«177826_j66597762892108_1_alg».proof.Defs
import proofs.«177826_j66597762892108_1_alg».proof.Proof.Gen.Kernel
import proofs.«177826_j66597762892108_1_alg».proof.Proof.Gen.KernelIdeal
import proofs.«177826_j66597762892108_1_alg».proof.Proof.Gen.ReferenceIdeal
import proofs.«177826_j66597762892108_1_alg».proof.Proof.Gen.Pre_finite_inputs
import proofs.«177826_j66597762892108_1_alg».proof.Proof.KbRun
import proofs.«177826_j66597762892108_1_alg».proof.Proof.KiRun
import proofs.«177826_j66597762892108_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Fr.frame m ρ

/-- So does the idealized one. -/
theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- The idealized kernel program's run with its result named: the result array ends holding what region 2's write-backs leave,
    the arguments end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v41) = Cert.KernelIdeal.Fr.o10 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c =>
    ⟨(h c _ (Cert.KernelIdeal.Fr.mem_uc Cert.KernelIdeal.main_v41 (by decide))).trans (Cert.KernelIdeal.Fr.U10_self m c),
     (h c _ (Cert.KernelIdeal.Fr.mem_uc Cert.KernelIdeal.main_arg0 (by decide))).trans (Cert.KernelIdeal.Fr.U10_keep m c Cert.KernelIdeal.main_arg0 (by decide) (by decide) (by decide) (by decide) (by decide) (by decide) (by decide) (by decide) (by decide) (by decide)),
     (h c _ (Cert.KernelIdeal.Fr.mem_uc Cert.KernelIdeal.main_arg1 (by decide))).trans (Cert.KernelIdeal.Fr.U10_keep m c Cert.KernelIdeal.main_arg1 (by decide) (by decide) (by decide) (by decide) (by decide) (by decide) (by decide) (by decide) (by decide) (by decide)),
     (h c _ (Cert.KernelIdeal.Fr.mem_uc Cert.KernelIdeal.main_arg2 (by decide))).trans (Cert.KernelIdeal.Fr.U10_keep m c Cert.KernelIdeal.main_arg2 (by decide) (by decide) (by decide) (by decide) (by decide) (by decide) (by decide) (by decide) (by decide) (by decide)),
     (h c _ (Cert.KernelIdeal.Fr.mem_uc Cert.KernelIdeal.main_arg3 (by decide))).trans (Cert.KernelIdeal.Fr.U10_keep m c Cert.KernelIdeal.main_arg3 (by decide) (by decide) (by decide) (by decide) (by decide) (by decide) (by decide) (by decide) (by decide) (by decide)),
     (h c _ (Cert.KernelIdeal.Fr.mem_uc Cert.KernelIdeal.main_arg4 (by decide))).trans (Cert.KernelIdeal.Fr.U10_keep m c Cert.KernelIdeal.main_arg4 (by decide) (by decide) (by decide) (by decide) (by decide) (by decide) (by decide) (by decide) (by decide) (by decide))⟩)
    (Cert.KernelIdeal.Fr.run_all m ρ)

/-- Run from memories that agree on the arguments, the two idealized programs end with the same result array: the kernel's is
    the reference's last stage of the arguments (the bridge), and the reference's run ends at that stage. -/
theorem algebraic : Cert.algebraic_KernelIdeal_ReferenceIdeal := by
  intro m ρ m' ρ' _ hagree
  refine ⟨fun c => Cert.KernelIdeal.Fr.o10 m c, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v42_eq, (hagree c).1, (hagree c).2.1, (hagree c).2.2.1, (hagree c).2.2.2.1, (hagree c).2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
